-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S1000000 : Shape := ⟨1, ![1000000]⟩
abbrev S64x64 : Shape := ⟨2, ![64, 64]⟩
abbrev S64 : Shape := ⟨1, ![64]⟩
abbrev S192x64 : Shape := ⟨2, ![192, 64]⟩
abbrev S192 : Shape := ⟨1, ![192]⟩
abbrev S16x64 : Shape := ⟨2, ![16, 64]⟩
abbrev S16 : Shape := ⟨1, ![16]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S192x64 : S_.BroadcastsInDim S192x64 (![] : Fin 0 → Fin S192x64.rank)
  reducesTo_S192x64_S_d0_1 : S192x64.ReducesTo [0, 1] S_
  bcast_S_S192 : S_.BroadcastsInDim S192 (![] : Fin 0 → Fin S192.rank)
  reducesTo_S192_S_d0 : S192.ReducesTo [0] S_
  bcast_S_S16x64 : S_.BroadcastsInDim S16x64 (![] : Fin 0 → Fin S16x64.rank)
  reducesTo_S16x64_S_d0_1 : S16x64.ReducesTo [0, 1] S_
  bcast_S_S16 : S_.BroadcastsInDim S16 (![] : Fin 0 → Fin S16.rank)
  reducesTo_S16_S_d0 : S16.ReducesTo [0] S_
  bcast_S_S1000000 : S_.BroadcastsInDim S1000000 (![] : Fin 0 → Fin S1000000.rank)
  reducesTo_S1000000_S_d0 : S1000000.ReducesTo [0] S_

variable [Facts]

def fn_part3 {F : FTy → Type} [FloatOps F] (main_arg1 : IVec S1000000 32) (main_v48 : IVec S_ 1) (main_v49 : FVec F S16 .f32) (main_v50 : FVec F S16 .f32) : IVec S_ 1 :=
  let main_v51 : IVec S16 1 := cmpf .olt main_v49 main_v50
  let main_c_19 : IVec S_ 1 := constantI S_ 1 1#1
  let main_v52 : IVec S_ 1 := (fun x v => Host.reduce IntOp.andi x v reducesTo_S16_S_d0 h_S_) main_v51 main_c_19
  let main_v53 : IVec S_ 1 := andi main_v48 main_v52
  let main_c_20 : IVec S_ 32 := constantI S_ 32 0#32
  let main_v54 : IVec S1000000 32 := broadcastInDim S1000000 ![] bcast_S_S1000000 main_c_20
  let main_v55 : IVec S1000000 1 := cmpi .sge main_arg1 main_v54
  let main_c_21 : IVec S_ 32 := constantI S_ 32 100000#32
  let main_v56 : IVec S1000000 32 := broadcastInDim S1000000 ![] bcast_S_S1000000 main_c_21
  let main_v57 : IVec S1000000 1 := cmpi .slt main_arg1 main_v56
  let main_v58 : IVec S1000000 1 := andi main_v55 main_v57
  let main_c_22 : IVec S_ 1 := constantI S_ 1 1#1
  let main_v59 : IVec S_ 1 := (fun x v => Host.reduce IntOp.andi x v reducesTo_S1000000_S_d0 h_S_) main_v58 main_c_22
  let main_v60 : IVec S_ 1 := andi main_v53 main_v59
  main_v60

def fn_part2 {F : FTy → Type} [FloatOps F] (main_arg1 : IVec S1000000 32) (main_arg10 : FVec F S192 .f32) (main_arg11 : FVec F S192 .f32) (main_arg12 : FVec F S16x64 .f32) (main_arg13 : FVec F S16 .f32) (main_v33 : IVec S_ 1) : IVec S_ 1 :=
  let main_v34 : FVec F S192 .f32 := Host.absf main_arg10
  let main_cst_12 : FVec F S_ .f32 := constant S_ .f32 0x7F800000#32
  let main_v35 : FVec F S192 .f32 := broadcastInDim S192 ![] bcast_S_S192 main_cst_12
  let main_v36 : IVec S192 1 := cmpf .olt main_v34 main_v35
  let main_c_13 : IVec S_ 1 := constantI S_ 1 1#1
  let main_v37 : IVec S_ 1 := (fun x v => Host.reduce IntOp.andi x v reducesTo_S192_S_d0 h_S_) main_v36 main_c_13
  let main_v38 : IVec S_ 1 := andi main_v33 main_v37
  let main_v39 : FVec F S192 .f32 := Host.absf main_arg11
  let main_cst_14 : FVec F S_ .f32 := constant S_ .f32 0x7F800000#32
  let main_v40 : FVec F S192 .f32 := broadcastInDim S192 ![] bcast_S_S192 main_cst_14
  let main_v41 : IVec S192 1 := cmpf .olt main_v39 main_v40
  let main_c_15 : IVec S_ 1 := constantI S_ 1 1#1
  let main_v42 : IVec S_ 1 := (fun x v => Host.reduce IntOp.andi x v reducesTo_S192_S_d0 h_S_) main_v41 main_c_15
  let main_v43 : IVec S_ 1 := andi main_v38 main_v42
  let main_v44 : FVec F S16x64 .f32 := Host.absf main_arg12
  let main_cst_16 : FVec F S_ .f32 := constant S_ .f32 0x7F800000#32
  let main_v45 : FVec F S16x64 .f32 := broadcastInDim S16x64 ![] bcast_S_S16x64 main_cst_16
  let main_v46 : IVec S16x64 1 := cmpf .olt main_v44 main_v45
  let main_c_17 : IVec S_ 1 := constantI S_ 1 1#1
  let main_v47 : IVec S_ 1 := (fun x v => Host.reduce IntOp.andi x v reducesTo_S16x64_S_d0_1 h_S_) main_v46 main_c_17
  let main_v48 : IVec S_ 1 := andi main_v43 main_v47
  let main_v49 : FVec F S16 .f32 := Host.absf main_arg13
  let main_cst_18 : FVec F S_ .f32 := constant S_ .f32 0x7F800000#32
  let main_v50 : FVec F S16 .f32 := broadcastInDim S16 ![] bcast_S_S16 main_cst_18
  fn_part3 (F := F) main_arg1 main_v48 main_v49 main_v50

def fn_part1 {F : FTy → Type} [FloatOps F] (main_arg1 : IVec S1000000 32) (main_arg7 : FVec F S64 .f32) (main_arg8 : FVec F S192x64 .f32) (main_arg9 : FVec F S192x64 .f32) (main_arg10 : FVec F S192 .f32) (main_arg11 : FVec F S192 .f32) (main_arg12 : FVec F S16x64 .f32) (main_arg13 : FVec F S16 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg7
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S192x64 .f32 := Host.absf main_arg8
  let main_cst_8 : FVec F S_ .f32 := constant S_ .f32 0x7F800000#32
  let main_v25 : FVec F S192x64 .f32 := broadcastInDim S192x64 ![] bcast_S_S192x64 main_cst_8
  let main_v26 : IVec S192x64 1 := cmpf .olt main_v24 main_v25
  let main_c_9 : IVec S_ 1 := constantI S_ 1 1#1
  let main_v27 : IVec S_ 1 := (fun x v => Host.reduce IntOp.andi x v reducesTo_S192x64_S_d0_1 h_S_) main_v26 main_c_9
  let main_v28 : IVec S_ 1 := andi main_v23 main_v27
  let main_v29 : FVec F S192x64 .f32 := Host.absf main_arg9
  let main_cst_10 : FVec F S_ .f32 := constant S_ .f32 0x7F800000#32
  let main_v30 : FVec F S192x64 .f32 := broadcastInDim S192x64 ![] bcast_S_S192x64 main_cst_10
  let main_v31 : IVec S192x64 1 := cmpf .olt main_v29 main_v30
  let main_c_11 : IVec S_ 1 := constantI S_ 1 1#1
  let main_v32 : IVec S_ 1 := (fun x v => Host.reduce IntOp.andi x v reducesTo_S192x64_S_d0_1 h_S_) main_v31 main_c_11
  let main_v33 : IVec S_ 1 := andi main_v28 main_v32
  fn_part2 (F := F) main_arg1 main_arg10 main_arg11 main_arg12 main_arg13 main_v33

def fn {F : FTy → Type} [FloatOps F] (main_arg0 : FVec F S100000x64 .f32) (main_arg1 : IVec S1000000 32) (main_arg2 : IVec S1000000 32) (main_arg3 : IVec S1000000 1) (main_arg4 : FVec F S64x64 .f32) (main_arg5 : FVec F S64 .f32) (main_arg6 : FVec F S64x64 .f32) (main_arg7 : FVec F S64 .f32) (main_arg8 : FVec F S192x64 .f32) (main_arg9 : FVec F S192x64 .f32) (main_arg10 : FVec F S192 .f32) (main_arg11 : FVec F S192 .f32) (main_arg12 : FVec F S16x64 .f32) (main_arg13 : FVec F S16 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg4
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg5
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg6
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg1 main_arg7 main_arg8 main_arg9 main_arg10 main_arg11 main_arg12 main_arg13 main_v13 main_v16
-- ==== Kernel.lean ====
abbrev S100000x64 : Shape := ⟨2, ![100000, 64]⟩
abbrev S1000000 : Shape := ⟨1, ![1000000]⟩
abbrev S64x64 : Shape := ⟨2, ![64, 64]⟩
abbrev S64 : Shape := ⟨1, ![64]⟩
abbrev S192x64 : Shape := ⟨2, ![192, 64]⟩
abbrev S192 : Shape := ⟨1, ![192]⟩
abbrev S16x64 : Shape := ⟨2, ![16, 64]⟩
abbrev S16 : Shape := ⟨1, ![16]⟩
abbrev S5000x64 : Shape := ⟨2, ![5000, 64]⟩
abbrev S1x64 : Shape := ⟨2, ![1, 64]⟩
abbrev S200000x64 : Shape := ⟨2, ![200000, 64]⟩
abbrev S_ : Shape := ⟨0, ![]⟩
abbrev S1000000x1 : Shape := ⟨2, ![1000000, 1]⟩
abbrev S1000000x64 : Shape := ⟨2, ![1000000, 64]⟩
abbrev S100000x16 : Shape := ⟨2, ![100000, 16]⟩
abbrev S5000x16 : Shape := ⟨2, ![5000, 16]⟩
abbrev S64x192 : Shape := ⟨2, ![64, 192]⟩
abbrev S5000x192 : Shape := ⟨2, ![5000, 192]⟩
abbrev S1x192 : Shape := ⟨2, ![1, 192]⟩
abbrev S64x16 : Shape := ⟨2, ![64, 16]⟩
abbrev S1x16 : Shape := ⟨2, ![1, 16]⟩

abbrev nBuf : Space → Nat
  | .hbm => 37
  | .vmem => 22
  | .smem => 0
  | _ => 0

abbrev bufTy : (tb : Table) → Fin (tcTables nBuf tb) → BufTy
  | .hbm, ⟨0, _⟩ => ⟨S100000x64, .f32⟩
  | .hbm, ⟨1, _⟩ => ⟨S1000000, .i32⟩
  | .hbm, ⟨2, _⟩ => ⟨S1000000, .i32⟩
  | .hbm, ⟨3, _⟩ => ⟨S1000000, .i1⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S192x64, .f32⟩
  | .hbm, ⟨9, _⟩ => ⟨S192x64, .f32⟩
  | .hbm, ⟨10, _⟩ => ⟨S192, .f32⟩
  | .hbm, ⟨11, _⟩ => ⟨S192, .f32⟩
  | .hbm, ⟨12, _⟩ => ⟨S16x64, .f32⟩
  | .hbm, ⟨13, _⟩ => ⟨S16, .f32⟩
  | .hbm, ⟨14, _⟩ => ⟨S100000x64, .bf16⟩
  | .hbm, ⟨15, _⟩ => ⟨S100000x64, .bf16⟩
  | .hbm, ⟨16, _⟩ => ⟨S200000x64, .bf16⟩
  | .hbm, ⟨17, _⟩ => ⟨S1000000, .i32⟩
  | .hbm, ⟨18, _⟩ => ⟨S_, .i32⟩
  | .hbm, ⟨19, _⟩ => ⟨S1000000, .i32⟩
  | .hbm, ⟨20, _⟩ => ⟨S1000000, .i32⟩
  | .hbm, ⟨21, _⟩ => ⟨S1000000, .i32⟩
  | .hbm, ⟨22, _⟩ => ⟨S_, .i32⟩
  | .hbm, ⟨23, _⟩ => ⟨S1000000, .i32⟩
  | .hbm, ⟨24, _⟩ => ⟨S1000000, .i1⟩
  | .hbm, ⟨25, _⟩ => ⟨S_, .i32⟩
  | .hbm, ⟨26, _⟩ => ⟨S1000000, .i32⟩
  | .hbm, ⟨27, _⟩ => ⟨S1000000, .i32⟩
  | .hbm, ⟨28, _⟩ => ⟨S1000000, .i32⟩
  | .hbm, ⟨29, _⟩ => ⟨S1000000x1, .i32⟩
  | .hbm, ⟨30, _⟩ => ⟨S1000000x64, .bf16⟩
  | .hbm, ⟨31, _⟩ => ⟨S1000000x64, .f32⟩
  | .hbm, ⟨32, _⟩ => ⟨S_, .f32⟩
  | .hbm, ⟨33, _⟩ => ⟨S100000x64, .f32⟩
  | .hbm, ⟨34, _⟩ => ⟨S1000000x1, .i32⟩
  | .hbm, ⟨35, _⟩ => ⟨S100000x64, .f32⟩
  | .hbm, ⟨36, _⟩ => ⟨S100000x16, .f32⟩
  | .local _ .vmem, ⟨0, _⟩ => ⟨S5000x64, .f32⟩
  | .local _ .vmem, ⟨1, _⟩ => ⟨S5000x64, .f32⟩
  | .local _ .vmem, ⟨2, _⟩ => ⟨S64x64, .f32⟩
  | .local _ .vmem, ⟨3, _⟩ => ⟨S64, .f32⟩
  | .local _ .vmem, ⟨4, _⟩ => ⟨S64x64, .f32⟩
  | .local _ .vmem, ⟨5, _⟩ => ⟨S64, .f32⟩
  | .local _ .vmem, ⟨6, _⟩ => ⟨S5000x64, .bf16⟩
  | .local _ .vmem, ⟨7, _⟩ => ⟨S5000x64, .bf16⟩
  | .local _ .vmem, ⟨8, _⟩ => ⟨S5000x64, .bf16⟩
  | .local _ .vmem, ⟨9, _⟩ => ⟨S5000x64, .bf16⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S5000x64, .f32⟩
  | .local _ .vmem, ⟨14, _⟩ => ⟨S192x64, .f32⟩
  | .local _ .vmem, ⟨15, _⟩ => ⟨S192x64, .f32⟩
  | .local _ .vmem, ⟨16, _⟩ => ⟨S192, .f32⟩
  | .local _ .vmem, ⟨17, _⟩ => ⟨S192, .f32⟩
  | .local _ .vmem, ⟨18, _⟩ => ⟨S16x64, .f32⟩
  | .local _ .vmem, ⟨19, _⟩ => ⟨S16, .f32⟩
  | .local _ .vmem, ⟨20, _⟩ => ⟨S5000x16, .f32⟩
  | .local _ .vmem, ⟨21, _⟩ => ⟨S5000x16, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0_0 : Ref sig .tc := ⟨.hbm, 14, rfl⟩
abbrev main_v0_1 : Ref sig .tc := ⟨.hbm, 15, rfl⟩
abbrev main_v1 : Ref sig .tc := ⟨.hbm, 16, rfl⟩
abbrev main_v2 : Ref sig .tc := ⟨.hbm, 17, rfl⟩
abbrev main_c : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_c_0 : Ref sig .tc := ⟨.hbm, 22, rfl⟩
abbrev main_v6 : Ref sig .tc := ⟨.hbm, 23, rfl⟩
abbrev main_v7 : Ref sig .tc := ⟨.hbm, 24, rfl⟩
abbrev main_c_1 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_cst : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg7_0 : Ref sig .tc := ⟨.vmem, 19, rfl⟩
abbrev cc1_stg8_0 : Ref sig .tc := ⟨.vmem, 20, rfl⟩
abbrev cc1_stg8_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem7_0 : DmaSem sig := 19
abbrev cc1_sem8_0 : DmaSem sig := 20
abbrev cc1_sem8_1 : DmaSem sig := 21

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x64 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S5000x64 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S192x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S192x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S192 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S192 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S16x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S16 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S5000x16 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

class Facts₀ : Prop where
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  transposes_S64x64_p1_0_S64x64 : S64x64.Transposes [1, 0] S64x64
  inb_S64_S64_0 : ∀ a, (![0] : Fin 1 → Nat) a + S64.size a ≤ S64.size a
  h_S64 : 0 < S64.numel
  shapeCasts_S64_S1x64 : S64.ShapeCasts S1x64
  broadcasts_S1x64_S5000x64 : S1x64.Broadcasts S5000x64
  packedbf16_S5000x64_S5000x64_0_0 : (Rect.unit (s := S5000x64) ![0, 0] S5000x64.size inb_S5000x64_S5000x64_0_0).PackedRows (EltTy.packing .bf16)
  concatenates_S100000x64_S100000x64_S200000x64_d0 : Shape.Concatenates [S100000x64, S100000x64] S200000x64 0
  natLt_1_32 : 1 < 32
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S100000x64 : S_.BroadcastsInDim S100000x64 (![] : Fin 0 → Fin S100000x64.rank)
  shapeCasts_S5000x64_S5000x64 : S5000x64.ShapeCasts S5000x64
  inb_S192x64_S192x64_0_0 : ∀ a, (![0, 0] : Fin 2 → Nat) a + S192x64.size a ≤ S192x64.size a
  h_S192x64 : 0 < S192x64.numel
  transposes_S192x64_p1_0_S64x192 : S192x64.Transposes [1, 0] S64x192
  inb_S192_S192_0 : ∀ a, (![0] : Fin 1 → Nat) a + S192.size a ≤ S192.size a
  h_S192 : 0 < S192.numel
  shapeCasts_S192_S1x192 : S192.ShapeCasts S1x192
  broadcasts_S1x192_S5000x192 : S1x192.Broadcasts S5000x192
  slices_S5000x192_o0_0_S5000x64 : S5000x192.Slices ![0, 0] S5000x64
  slices_S5000x192_o0_64_S5000x64 : S5000x192.Slices ![0, 64] S5000x64
  slices_S5000x192_o0_128_S5000x64 : S5000x192.Slices ![0, 128] S5000x64
  inb_S16x64_S16x64_0_0 : ∀ a, (![0, 0] : Fin 2 → Nat) a + S16x64.size a ≤ S16x64.size a
  h_S16x64 : 0 < S16x64.numel
  transposes_S16x64_p1_0_S64x16 : S16x64.Transposes [1, 0] S64x16
  inb_S16_S16_0 : ∀ a, (![0] : Fin 1 → Nat) a + S16.size a ≤ S16.size a
  h_S16 : 0 < S16.numel
  shapeCasts_S16_S1x16 : S16.ShapeCasts S1x16
  broadcasts_S1x16_S5000x16 : S1x16.Broadcasts S5000x16
  inb_S5000x16_S5000x16_0_0 : ∀ a, (![0, 0] : Fin 2 → Nat) a + S5000x16.size a ≤ S5000x16.size a
  h_S5000x16 : 0 < S5000x16.numel
  dot_S5000x64_S64x64_S5000x64_1_0_0_1_n_n_wf : DotDims.WF S5000x64 S64x64 S5000x64 [1] [0] [0] [1] [] []
  gather_S200000x64_S1000000x1_S1000000x64_1_0_n_n_0_1_164_wf : GatherDims.WF S200000x64 S1000000x1 S1000000x64 [1] [0] [] [0] [] 1 ![1, 64]
  scatter_S100000x64_S1000000x1_S1000000x64_1_0_0_1_wf : ScatterDims.WF S100000x64 S1000000x1 S1000000x64 [1] [0] [0] 1
  dot_S5000x64_S64x192_S5000x192_1_0_0_1_n_n_wf : DotDims.WF S5000x64 S64x192 S5000x192 [1] [0] [0] [1] [] []
  dot_S5000x64_S64x16_S5000x16_1_0_0_1_n_n_wf : DotDims.WF S5000x64 S64x16 S5000x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64.size a ≤ S64.size a
  hwx0_2 : ∀ i : grid0.Coords, EltTy.bits .f32 = 32 ∨ (Rect.block (s := S64) S64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64.size a ≤ S64.size a
  hwx0_4 : ∀ i : grid0.Coords, EltTy.bits .f32 = 32 ∨ (Rect.block (s := S64) S64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x64.size a ≤ S100000x64.size a
  hwx0_5 : ∀ i : grid0.Coords, EltTy.bits .bf16 = 32 ∨ (Rect.block (s := S100000x64) S5000x64.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x64.size a ≤ S100000x64.size a
  hwx0_6 : ∀ i : grid0.Coords, EltTy.bits .bf16 = 32 ∨ (Rect.block (s := S100000x64) S5000x64.size (cc0_transform_6 i) (hinb0_6 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S192x64.size a ≤ S192x64.size a
  hwx1_2 : ∀ i : grid1.Coords, EltTy.bits .f32 = 32 ∨ (Rect.block (s := S192x64) S192x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S192x64.size a ≤ S192x64.size a
  hwx1_3 : ∀ i : grid1.Coords, EltTy.bits .f32 = 32 ∨ (Rect.block (s := S192x64) S192x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S192.size a ≤ S192.size a
  hwx1_4 : ∀ i : grid1.Coords, EltTy.bits .f32 = 32 ∨ (Rect.block (s := S192) S192.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S192.size a ≤ S192.size a
  hwx1_5 : ∀ i : grid1.Coords, EltTy.bits .f32 = 32 ∨ (Rect.block (s := S192) S192.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S16x64.size a ≤ S16x64.size a
  hwx1_6 : ∀ i : grid1.Coords, EltTy.bits .f32 = 32 ∨ (Rect.block (s := S16x64) S16x64.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S16.size a ≤ S16.size a
  hwx1_7 : ∀ i : grid1.Coords, EltTy.bits .f32 = 32 ∨ (Rect.block (s := S16) S16.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S5000x16.size a ≤ S100000x16.size a
  hwx1_8 : ∀ i : grid1.Coords, EltTy.bits .f32 = 32 ∨ (Rect.block (s := S100000x16) S5000x16.size (cc1_transform_8 i) (hinb1_8 i)).WholeWords (EltTy.packing .f32)

variable [Facts₀]

def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def gather_S200000x64_S1000000x1_S1000000x64_1_0_n_n_0_1_164 : GatherDims S200000x64 S1000000x1 S1000000x64 where
  offsetDims := [1]
  collapsedSliceDims := [0]
  operandBatchingDims := []
  startIndicesBatchingDims := []
  startIndexMap := [0]
  indexVectorDim := 1
  sliceSizes := ![1, 64]
  wf := gather_S200000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def dot_S5000x64_S64x192_S5000x192_1_0_0_1_n_n : DotDims S5000x64 S64x192 S5000x192 where
  lhsContracting := [1]
  rhsContracting := [0]
  lhsNonContracting := [0]
  rhsNonContracting := [1]
  lhsBatch := []
  rhsBatch := []
  wf := dot_S5000x64_S64x192_S5000x192_1_0_0_1_n_n_wf
def dot_S5000x64_S64x16_S5000x16_1_0_0_1_n_n : DotDims S5000x64 S64x16 S5000x16 where
  lhsContracting := [1]
  rhsContracting := [0]
  lhsNonContracting := [0]
  rhsNonContracting := [1]
  lhsBatch := []
  rhsBatch := []
  wf := dot_S5000x64_S64x16_S5000x16_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg6) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg7) S64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0_0) S5000x64.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v0_1) S5000x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v16) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg8) S192x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg9) S192x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg10) S192.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg11) S192.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg12) S16x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg13) S16.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v17) S5000x16.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

class Facts : Prop extends Facts₀ where

variable [Facts]
-- ==== ReferenceIdeal.lean ====
abbrev S100000x64 : Shape := ⟨2, ![100000, 64]⟩
abbrev S1000000 : Shape := ⟨1, ![1000000]⟩
abbrev S64x64 : Shape := ⟨2, ![64, 64]⟩
abbrev S64 : Shape := ⟨1, ![64]⟩
abbrev S192x64 : Shape := ⟨2, ![192, 64]⟩
abbrev S192 : Shape := ⟨1, ![192]⟩
abbrev S16x64 : Shape := ⟨2, ![16, 64]⟩
abbrev S16 : Shape := ⟨1, ![16]⟩
abbrev S_ : Shape := ⟨0, ![]⟩
abbrev S1000000x1 : Shape := ⟨2, ![1000000, 1]⟩
abbrev S1000000x64 : Shape := ⟨2, ![1000000, 64]⟩
abbrev S1x64 : Shape := ⟨2, ![1, 64]⟩
abbrev S64x192 : Shape := ⟨2, ![64, 192]⟩
abbrev S100000x192 : Shape := ⟨2, ![100000, 192]⟩
abbrev S1x192 : Shape := ⟨2, ![1, 192]⟩
abbrev S64x16 : Shape := ⟨2, ![64, 16]⟩
abbrev S100000x16 : Shape := ⟨2, ![100000, 16]⟩
abbrev S1x16 : Shape := ⟨2, ![1, 16]⟩

abbrev nBuf : Space → Nat
  | .hbm => 88
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S1000000, .i32⟩
  | .hbm, ⟨2, _⟩ => ⟨S1000000, .i32⟩
  | .hbm, ⟨3, _⟩ => ⟨S1000000, .i1⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S192x64, .f32⟩
  | .hbm, ⟨9, _⟩ => ⟨S192x64, .f32⟩
  | .hbm, ⟨10, _⟩ => ⟨S192, .f32⟩
  | .hbm, ⟨11, _⟩ => ⟨S192, .f32⟩
  | .hbm, ⟨12, _⟩ => ⟨S16x64, .f32⟩
  | .hbm, ⟨13, _⟩ => ⟨S16, .f32⟩
  | .hbm, ⟨14, _⟩ => ⟨S_, .i32⟩
  | .hbm, ⟨15, _⟩ => ⟨S1000000, .i32⟩
  | .hbm, ⟨16, _⟩ => ⟨S1000000, .i1⟩
  | .hbm, ⟨17, _⟩ => ⟨S_, .i32⟩
  | .hbm, ⟨18, _⟩ => ⟨S1000000, .i32⟩
  | .hbm, ⟨19, _⟩ => ⟨S1000000, .i32⟩
  | .hbm, ⟨20, _⟩ => ⟨S1000000, .i32⟩
  | .hbm, ⟨21, _⟩ => ⟨S1000000x1, .i32⟩
  | .hbm, ⟨22, _⟩ => ⟨S1000000x64, .f32⟩
  | .hbm, ⟨23, _⟩ => ⟨S64x64, .f32⟩
  | .hbm, ⟨24, _⟩ => ⟨S1000000x64, .f32⟩
  | .hbm, ⟨25, _⟩ => ⟨S1x64, .f32⟩
  | .hbm, ⟨26, _⟩ => ⟨S1000000x64, .f32⟩
  | .hbm, ⟨27, _⟩ => ⟨S1000000x64, .f32⟩
  | .hbm, ⟨28, _⟩ => ⟨S64x64, .f32⟩
  | .hbm, ⟨29, _⟩ => ⟨S1000000x64, .f32⟩
  | .hbm, ⟨30, _⟩ => ⟨S1x64, .f32⟩
  | .hbm, ⟨31, _⟩ => ⟨S1000000x64, .f32⟩
  | .hbm, ⟨32, _⟩ => ⟨S1000000x64, .f32⟩
  | .hbm, ⟨33, _⟩ => ⟨S1000000x1, .i1⟩
  | .hbm, ⟨34, _⟩ => ⟨S1000000x64, .i1⟩
  | .hbm, ⟨35, _⟩ => ⟨S1000000x64, .f32⟩
  | .hbm, ⟨36, _⟩ => ⟨S_, .f32⟩
  | .hbm, ⟨37, _⟩ => ⟨S100000x64, .f32⟩
  | .hbm, ⟨38, _⟩ => ⟨S1000000x1, .i32⟩
  | .hbm, ⟨39, _⟩ => ⟨S100000x64, .f32⟩
  | .hbm, ⟨40, _⟩ => ⟨S64x192, .f32⟩
  | .hbm, ⟨41, _⟩ => ⟨S100000x192, .f32⟩
  | .hbm, ⟨42, _⟩ => ⟨S1x192, .f32⟩
  | .hbm, ⟨43, _⟩ => ⟨S100000x192, .f32⟩
  | .hbm, ⟨44, _⟩ => ⟨S100000x192, .f32⟩
  | .hbm, ⟨45, _⟩ => ⟨S64x192, .f32⟩
  | .hbm, ⟨46, _⟩ => ⟨S100000x192, .f32⟩
  | .hbm, ⟨47, _⟩ => ⟨S1x192, .f32⟩
  | .hbm, ⟨48, _⟩ => ⟨S100000x192, .f32⟩
  | .hbm, ⟨49, _⟩ => ⟨S100000x192, .f32⟩
  | .hbm, ⟨50, _⟩ => ⟨S100000x64, .f32⟩
  | .hbm, ⟨51, _⟩ => ⟨S100000x64, .f32⟩
  | .hbm, ⟨52, _⟩ => ⟨S100000x64, .f32⟩
  | .hbm, ⟨53, _⟩ => ⟨S100000x64, .f32⟩
  | .hbm, ⟨54, _⟩ => ⟨S100000x64, .f32⟩
  | .hbm, ⟨55, _⟩ => ⟨S100000x64, .f32⟩
  | .hbm, ⟨56, _⟩ => ⟨S100000x64, .f32⟩
  | .hbm, ⟨57, _⟩ => ⟨S100000x64, .f32⟩
  | .hbm, ⟨58, _⟩ => ⟨S100000x64, .f32⟩
  | .hbm, ⟨59, _⟩ => ⟨S_, .f32⟩
  | .hbm, ⟨60, _⟩ => ⟨S100000x64, .f32⟩
  | .hbm, ⟨61, _⟩ => ⟨S100000x64, .f32⟩
  | .hbm, ⟨62, _⟩ => ⟨S_, .f32⟩
  | .hbm, ⟨63, _⟩ => ⟨S100000x64, .f32⟩
  | .hbm, ⟨64, _⟩ => ⟨S100000x64, .f32⟩
  | .hbm, ⟨65, _⟩ => ⟨S100000x64, .f32⟩
  | .hbm, ⟨66, _⟩ => ⟨S100000x64, .f32⟩
  | .hbm, ⟨67, _⟩ => ⟨S100000x64, .f32⟩
  | .hbm, ⟨68, _⟩ => ⟨S_, .f32⟩
  | .hbm, ⟨69, _⟩ => ⟨S100000x64, .f32⟩
  | .hbm, ⟨70, _⟩ => ⟨S100000x64, .f32⟩
  | .hbm, ⟨71, _⟩ => ⟨S_, .f32⟩
  | .hbm, ⟨72, _⟩ => ⟨S100000x64, .f32⟩
  | .hbm, ⟨73, _⟩ => ⟨S100000x64, .f32⟩
  | .hbm, ⟨74, _⟩ => ⟨S100000x64, .f32⟩
  | .hbm, ⟨75, _⟩ => ⟨S100000x64, .f32⟩
  | .hbm, ⟨76, _⟩ => ⟨S100000x64, .f32⟩
  | .hbm, ⟨77, _⟩ => ⟨S_, .f32⟩
  | .hbm, ⟨78, _⟩ => ⟨S100000x64, .f32⟩
  | .hbm, ⟨79, _⟩ => ⟨S100000x64, .f32⟩
  | .hbm, ⟨80, _⟩ => ⟨S100000x64, .f32⟩
  | .hbm, ⟨81, _⟩ => ⟨S100000x64, .f32⟩
  | .hbm, ⟨82, _⟩ => ⟨S100000x64, .f32⟩
  | .hbm, ⟨83, _⟩ => ⟨S64x16, .f32⟩
  | .hbm, ⟨84, _⟩ => ⟨S100000x16, .f32⟩
  | .hbm, ⟨85, _⟩ => ⟨S1x16, .f32⟩
  | .hbm, ⟨86, _⟩ => ⟨S100000x16, .f32⟩
  | .hbm, ⟨87, _⟩ => ⟨S100000x16, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_c : Ref sig .tc := ⟨.hbm, 14, rfl⟩
abbrev main_v0 : Ref sig .tc := ⟨.hbm, 15, rfl⟩
abbrev main_v1 : Ref sig .tc := ⟨.hbm, 16, rfl⟩
abbrev main_c_0 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_call0_v0 : Ref sig .tc := ⟨.hbm, 34, rfl⟩
abbrev main_v18 : Ref sig .tc := ⟨.hbm, 35, rfl⟩
abbrev main_cst : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_1 : Ref sig .tc := ⟨.hbm, 59, rfl⟩
abbrev main_v41 : Ref sig .tc := ⟨.hbm, 60, rfl⟩
abbrev main_v42 : Ref sig .tc := ⟨.hbm, 61, rfl⟩
abbrev main_cst_2 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_cst_3 : Ref sig .tc := ⟨.hbm, 68, rfl⟩
abbrev main_v48 : Ref sig .tc := ⟨.hbm, 69, rfl⟩
abbrev main_v49 : Ref sig .tc := ⟨.hbm, 70, rfl⟩
abbrev main_cst_4 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_cst_5 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩

abbrev nD : Nat := 1
abbrev τ : Topo := Topo.v7x

variable {F : FTy → Type} [FloatOps F]

class Facts₀ : Prop where
  bcast_S_S1000000 : S_.BroadcastsInDim S1000000 (![] : Fin 0 → Fin S1000000.rank)
  bcast_S1000000_S1000000x1_0 : S1000000.BroadcastsInDim S1000000x1 (![0] : Fin 1 → Fin S1000000x1.rank)
  transposes_S64x64_S64x64_1_0 : S64x64.Transposes [1, 0] S64x64
  bcast_S64_S1x64_1 : S64.BroadcastsInDim S1x64 (![1] : Fin 1 → Fin S1x64.rank)
  bcast_S1x64_S1000000x64_0_1 : S1x64.BroadcastsInDim S1000000x64 (![0, 1] : Fin 2 → Fin S1000000x64.rank)
  bcast_S1000000x1_S1000000x64_0_1 : S1000000x1.BroadcastsInDim S1000000x64 (![0, 1] : Fin 2 → Fin S1000000x64.rank)
  bcast_S_S100000x64 : S_.BroadcastsInDim S100000x64 (![] : Fin 0 → Fin S100000x64.rank)
  transposes_S192x64_S64x192_1_0 : S192x64.Transposes [1, 0] S64x192
  bcast_S192_S1x192_1 : S192.BroadcastsInDim S1x192 (![1] : Fin 1 → Fin S1x192.rank)
  bcast_S1x192_S100000x192_0_1 : S1x192.BroadcastsInDim S100000x192 (![0, 1] : Fin 2 → Fin S100000x192.rank)
  slices_S100000x192_S100000x64_0_0 : S100000x192.Slices ![0, 0] S100000x64
  slices_S100000x192_S100000x64_0_64 : S100000x192.Slices ![0, 64] S100000x64
  slices_S100000x192_S100000x64_0_128 : S100000x192.Slices ![0, 128] S100000x64
  transposes_S16x64_S64x16_1_0 : S16x64.Transposes [1, 0] S64x16
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  gather_S100000x64_S1000000x1_S1000000x64_1_0_n_n_0_1_164_wf : GatherDims.WF S100000x64 S1000000x1 S1000000x64 [1] [0] [] [0] [] 1 ![1, 64]
  dot_S1000000x64_S64x64_S1000000x64_1_0_0_1_n_n_wf : DotDims.WF S1000000x64 S64x64 S1000000x64 [1] [0] [0] [1] [] []
  scatter_S100000x64_S1000000x1_S1000000x64_1_0_0_1_wf : ScatterDims.WF S100000x64 S1000000x1 S1000000x64 [1] [0] [0] 1
  dot_S100000x64_S64x192_S100000x192_1_0_0_1_n_n_wf : DotDims.WF S100000x64 S64x192 S100000x192 [1] [0] [0] [1] [] []
  dot_S100000x64_S64x16_S100000x16_1_0_0_1_n_n_wf : DotDims.WF S100000x64 S64x16 S100000x16 [1] [0] [0] [1] [] []

variable [Facts₀]

def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def dot_S1000000x64_S64x64_S1000000x64_1_0_0_1_n_n : DotDims S1000000x64 S64x64 S1000000x64 where
  lhsContracting := [1]
  rhsContracting := [0]
  lhsNonContracting := [0]
  rhsNonContracting := [1]
  lhsBatch := []
  rhsBatch := []
  wf := dot_S1000000x64_S64x64_S1000000x64_1_0_0_1_n_n_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def dot_S100000x64_S64x192_S100000x192_1_0_0_1_n_n : DotDims S100000x64 S64x192 S100000x192 where
  lhsContracting := [1]
  rhsContracting := [0]
  lhsNonContracting := [0]
  rhsNonContracting := [1]
  lhsBatch := []
  rhsBatch := []
  wf := dot_S100000x64_S64x192_S100000x192_1_0_0_1_n_n_wf
def dot_S100000x64_S64x16_S100000x16_1_0_0_1_n_n : DotDims S100000x64 S64x16 S100000x16 where
  lhsContracting := [1]
  rhsContracting := [0]
  lhsNonContracting := [0]
  rhsNonContracting := [1]
  lhsBatch := []
  rhsBatch := []
  wf := dot_S100000x64_S64x16_S100000x16_1_0_0_1_n_n_wf

class Facts : Prop extends Facts₀ where

variable [Facts]
-- ==== Proof.Spec.lean ====
/-
  WHAT BOTH PROGRAMS COMPUTE, index by index, on the extended reals.

  A graph of N = 100000 nodes with 64 features each, E = 1000000 edges. Edge e goes from node src e to node dst e and
  has a type bit et e. Its message is one of two affine maps of its source node's feature row:
      msg (e, q) = Σ_k x (src e, k) · W (q, k) + b q,      (W, b) = (W0, b0) if et e is set, (W1, b1) if not.
  The messages are added up per destination node (the accumulation `agg`, which both programs form by the SAME
  scatter-add of the message array at the column of dst: it is carried here as one array and never opened).
  Then one gated-recurrent step per node p, with input agg p and hidden state x p:
      gi = agg p · W_ihᵀ + b_ih,   gh = x p · W_hhᵀ + b_hh          (192 entries each: three gates of 64)
      r = σ (gi[0:64] + gh[0:64]),   z = σ (gi[64:128] + gh[64:128]),   n = tanh (gi[128:192] + r · gh[128:192])
      h' = (1 − z) · n + z · x p,        out (p, c) = Σ_d h' d · W_out (c, d) + b_out c,
  where σ t = 1 / (1 + e^(−t)).

  Row p of a table is read as the function k ↦ t (p, k); `affAt` is one entry of an affine image of such a row, and
  both the message and the gates are stated through it.
-/
import Idealize.ShloMosaic.PureOps.Ideal
import Idealize.ShloMosaic.Lib.ValueIdx

noncomputable section

namespace Cert.Spec

open Idealize.ShloMosaic Idealize.ShloMosaic.ValueIdx

/-- Arrays of extended reals over the literal shapes of this program. -/
abbrev Nodes := (⟨2, ![100000, 64]⟩ : Shape).Idx → EReal
abbrev Edges := (⟨2, ![1000000, 64]⟩ : Shape).Idx → EReal
abbrev Out := (⟨2, ![100000, 16]⟩ : Shape).Idx → EReal
abbrev Mat (a b : Nat) := (⟨2, ![a, b]⟩ : Shape).Idx → EReal
abbrev Row (a : Nat) := (⟨1, ![a]⟩ : Shape).Idx → EReal

/-- Entry q of the affine image v · Wᵀ + b of a row v of 64 entries, W having J rows: Σ_k v k · W (q, k) + b q. -/
def affAt {J : Nat} (v : Fin 64 → EReal) (W : Mat J 64) (b : Row J) (q : Fin J) : EReal :=
  (∑ k : Fin 64, v k * W (ix2 q k)) + b (ix1 q)

/-- The affine image of every row of a node table: (x · Wᵀ + b) (p, q). -/
def lin (x : Nodes) (W : Mat 64 64) (b : Row 64) : Nodes :=
  fun j => affAt (fun k => x (ix2 (j 0) k)) W b (j 1)

/-- The node a 32-bit source index names: the index as a signed integer, kept inside the table's rows 0 … 99999
    (for an index already in that range, itself). -/
def node (w : BitVec 32) : Fin 100000 := ⟨min w.toInt.toNat (100000 - 1), by omega⟩

/-- The message of edge e, entry q: the affine map its type bit selects, of its source node's feature row. -/
def msg (x : Nodes) (src : IVec ⟨1, ![1000000]⟩ 32) (et : IVec ⟨1, ![1000000]⟩ 1)
    (W0 : Mat 64 64) (b0 : Row 64) (W1 : Mat 64 64) (b1 : Row 64) : Edges :=
  fun j =>
    if et (ix1 (j 0)) = 1#1 then affAt (fun k => x (ix2 (node (src (ix1 (j 0)))) k)) W0 b0 (j 1)
    else affAt (fun k => x (ix2 (node (src (ix1 (j 0)))) k)) W1 b1 (j 1)

/-- The three gate offsets inside a row of 192: entry d of gate g (g = 0, 1, 2) is entry 64 · g + d. -/
def gate (g : Fin 3) (d : Fin 64) : Fin 192 := ⟨64 * g.val + d.val, by omega⟩

/-- The float one, as both programs print it (never evaluated: the same word on both sides). -/
abbrev one : EReal := Ideal.ofBits .f32 0x3F800000#32

/-- The updated hidden state of one node, entry d: from its accumulated message row a and its feature row h. -/
def hidden (a h : Fin 64 → EReal) (Wih Whh : Mat 192 64) (bih bhh : Row 192) (d : Fin 64) : EReal :=
  let gi := fun j : Fin 192 => affAt a Wih bih j
  let gh := fun j : Fin 192 => affAt h Whh bhh j
  let r := Ideal.logistic (gi (gate 0 d) + gh (gate 0 d))
  let z := Ideal.logistic (gi (gate 1 d) + gh (gate 1 d))
  let n := Ideal.tanh (gi (gate 2 d) + r * gh (gate 2 d))
  (one - z) * n + z * h d

/-- One gated-recurrent step on every node, then the classifier: out (p, c). -/
def gru (agg x : Nodes) (Wih Whh : Mat 192 64) (bih bhh : Row 192) (Wout : Mat 16 64) (bout : Row 16) : Out :=
  fun j =>
    (∑ d : Fin 64, hidden (fun k => agg (ix2 (j 0) k)) (fun k => x (ix2 (j 0) k)) Wih Whh bih bhh d * Wout (ix2 (j 1) d))
      + bout (ix1 (j 1))

end Cert.Spec

end
-- ==== Proof.PreSrc.lean ====
/-
  THE ADDED CONJUNCT, READ BACK. The precondition ends in the conjunction of the finiteness tests with
  "every source index lies in [0, 100000)": an `and` over all 1000000 edges of (src e ≥ 0) ∧ (src e < 100000), both
  compared as signed 32-bit integers. When the whole predicate is 1, that last conjunct is 1, so every element of the
  compared array is 1, so each edge's two comparisons hold: 0 ≤ src e < 100000 as integers.
-/
import proofs.«424295_j87917980549370_2_alg».proof.Pre_finite_inputs
import Idealize.ShloMosaic.PureOps.Ideal
import Idealize.ShloMosaic.Lib.ValueIdx
import Idealize.ShloMosaic.Lib.ReduceAll
import Idealize.ShloMosaic.Lib.StableHlo.Predicate

set_option maxRecDepth 16384

noncomputable section

namespace Cert.PreSrc

open Cert.Pre_finite_inputs Idealize.ShloMosaic Idealize.ShloMosaic.ValueIdx

instance : Subsingleton S_.Idx := ⟨fun a b => funext fun d => d.elim0⟩

/-- The two signed comparisons of a word against 0 and 100000, read as integer inequalities. -/
theorem range_of_cmp (w : BitVec 32) (h0 : IntOp.cmpi .sge w 0#32 = 1#1) (h1 : IntOp.cmpi .slt w 100000#32 = 1#1) :
    0 ≤ w.toInt ∧ w.toInt < 100000 := by
  unfold IntOp.cmpi at h0 h1
  rw [StableHlo.Predicate.ofBool_eq_one_iff] at h0 h1
  simp only [BitVec.slt, BitVec.sle, decide_eq_true_eq] at h0 h1
  have e0 : (0#32 : BitVec 32).toInt = 0 := by decide
  have e1 : (100000#32 : BitVec 32).toInt = 100000 := by decide
  rw [e0] at h0
  rw [e1] at h1
  exact ⟨h0, h1⟩

variable [Facts]

/-- Under the precondition every source index is a node: 0 ≤ src e < 100000. -/
theorem src_range (a0 : FVec Ideal S100000x64 .f32) (a1 : IVec S1000000 32) (a2 : IVec S1000000 32) (a3 : IVec S1000000 1)
    (a4 : FVec Ideal S64x64 .f32) (a5 : FVec Ideal S64 .f32) (a6 : FVec Ideal S64x64 .f32) (a7 : FVec Ideal S64 .f32)
    (a8 : FVec Ideal S192x64 .f32) (a9 : FVec Ideal S192x64 .f32) (a10 : FVec Ideal S192 .f32) (a11 : FVec Ideal S192 .f32)
    (a12 : FVec Ideal S16x64 .f32) (a13 : FVec Ideal S16 .f32)
    (h : fn (F := Ideal) a0 a1 a2 a3 a4 a5 a6 a7 a8 a9 a10 a11 a12 a13 = fun _ => 1#1) (e : Fin 1000000) :
    0 ≤ (a1 (ix1 e)).toInt ∧ (a1 (ix1 e)).toInt < 100000 := by
  have h0 := congrFun h ix0
  dsimp only [fn, fn_part1, fn_part2, fn_part3] at h0
  have h1 := (IntOp.andi_eq_one.1 h0).2
  have h2 := Host.reduce_andi_all _ _ _ _ _ h1 (ix1 e)
  obtain ⟨hge, hlt⟩ := IntOp.andi_eq_one.1 h2
  exact range_of_cmp _ hge hlt

end Cert.PreSrc

end
-- ==== Proof.LibRowGather.lean ====
/-
  THE ROW GATHER READ AT AN INDEX. What `table[idx]` of a rank-2 table `table : [N, C]` at a vector of row indices
  lowers to: a `stablehlo.gather` with offset_dims `[1]`, collapsed_slice_dims `[0]`, start_index_map `[0]`,
  index_vector_dim `1` and slice_sizes `[1, C]`, over the indices kept as an `[n, 1]` column. Its result is `[n, C]`,
  and the element at `(p, q)` is the table's at `(row, q)`, where `row` is the start index `idx[p, 0]` read as a SIGNED
  integer and CLAMPED into `[0, N − 1]` (StableHLO clamps every start index so that the slice fits; here the slice is
  one row, so the clamp is to the last row): a negative index reads row `0`, one past the end reads row `N − 1`.

  `rowDims` is the record of those dimension numbers, written as a literal structure so that every list lookup in the
  gather's operand index computes; `rowGather_apply` is the read. The lemma is general in `N`, `C`, `n`, the index
  width `w` and the element type; the conditions `wf` on the dimension numbers are decided on a program's literal
  shapes. This is the rank-2 companion of `ValueIdx.gather_take_apply` (a rank-1 table).
-/
import Idealize.ShloMosaic.PureOps.Ideal
import Idealize.ShloMosaic.Lib.ValueIdx
noncomputable section
namespace Idealize.ShloMosaic.RowGather
open Idealize.ShloMosaic Idealize.ShloMosaic.ValueIdx

/-- The dimension numbers of a row gather out of an [N, C] table at an [n, 1] column of row indices. -/
abbrev rowDims (N C n : Nat)
    (wf : GatherDims.WF ⟨2, ![N, C]⟩ ⟨2, ![n, 1]⟩ ⟨2, ![n, C]⟩ [1] [0] [] [0] [] 1 ![1, C]) :
    GatherDims ⟨2, ![N, C]⟩ ⟨2, ![n, 1]⟩ ⟨2, ![n, C]⟩ where
  offsetDims := [1]
  collapsedSliceDims := [0]
  operandBatchingDims := []
  startIndicesBatchingDims := []
  startIndexMap := [0]
  indexVectorDim := 1
  sliceSizes := ![1, C]
  wf := wf

/-- The row gather read at (p, q): the table at the clamped signed start index of row p, column q. -/
theorem rowGather_apply {α : Type} {N C n w : Nat} (hN : 0 < N)
    (wf : GatherDims.WF ⟨2, ![N, C]⟩ ⟨2, ![n, 1]⟩ ⟨2, ![n, C]⟩ [1] [0] [] [0] [] 1 ![1, C])
    (x : (⟨2, ![N, C]⟩ : Shape).Idx → α) (idx : IVec ⟨2, ![n, 1]⟩ w) (p : Fin n) (q : Fin C) :
    Host.gather (rowDims N C n wf) x idx (ix2 p q)
      = x (ix2 (⟨min (idx (ix2 p (0 : Fin 1))).toInt.toNat (N - 1), by omega⟩ : Fin N) q) := by
  -- the gather reads the operand at its operand index: compare the two indices axis by axis, as naturals
  unfold Host.gather
  congr 1
  funext a
  refine Fin.ext ?_
  match a with
  | ⟨0, _⟩ =>
    -- AXIS 0, collapsed and start-indexed: no batching coordinate (no batching axes), no offset coordinate (a collapsed
    -- axis is not a kept one), so the operand coordinate is the clamped start alone
    show (rowDims N C n wf).start (ix2 p q) idx 0 + (rowDims N C n wf).batchCoord (ix2 p q) 0
        + (rowDims N C n wf).offCoord (ix2 p q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N C n wf).startIndexMap from List.mem_singleton.mpr rfl)]
    -- the start index's one component is read at (p, 0): the result's batch coordinate p on the start indices' axis 0,
    -- the component's number 0 on the index vector's axis 1
    have hsi : (rowDims N C n wf).siIdx (ix2 p q) ⟨List.idxOf (0 : Fin 2) (rowDims N C n wf).startIndexMap,
        List.idxOf_lt_length_iff.2 (List.mem_singleton.mpr rfl)⟩ = ix2 p (0 : Fin 1) := by
      funext b; refine Fin.ext ?_
      match b with
      | ⟨0, _⟩ => rfl
      | ⟨1, _⟩ => rfl
    rw [hsi]
    -- the clamp's upper end: the axis's extent N less the slice size 1
    rfl
  | ⟨1, _⟩ =>
    -- AXIS 1, an offset axis: the start index map does not name it, so the start is 0; there is no batching
    -- coordinate; it is the operand's one kept axis, read by the result's one offset axis, whose coordinate is q
    show (rowDims N C n wf).start (ix2 p q) idx 1 + (rowDims N C n wf).batchCoord (ix2 p q) 1
        + (rowDims N C n wf).offCoord (ix2 p q) 1 = q.val
    have hk : (1 : Fin 2) ∈ (rowDims N C n wf).sKept :=
      (GatherDims.mem_sKept _ _).mpr ⟨by show (1 : Fin 2) ∉ [(0 : Fin 2)]; decide, List.not_mem_nil⟩
    rw [GatherDims.batchCoord_eq_zero _ _ _ List.not_mem_nil]
    unfold GatherDims.start GatherDims.offCoord
    rw [dif_neg (show (1 : Fin 2) ∉ (rowDims N C n wf).startIndexMap by
      show (1 : Fin 2) ∉ [(0 : Fin 2)]; decide), dif_pos hk]
    simp only [Nat.zero_add]
    rfl
end Idealize.ShloMosaic.RowGather
end
-- ==== Proof.KMsg.lean ====
/-
  THE KERNEL's message array is Spec.msg, when every source index is a node.
  The kernel stacks the two node tables, the one for a cleared type bit first: row r < 100000 of the stack is row r
  of the second image, row 100000 + r is row r of the first. Edge e reads row src e + 100000 · (et e) of the stack
  (a negative combined index would have 200000 added first; with 0 ≤ src e < 100000 and a type bit 0 or 1 the combined
  index lies in [0, 200000) and is left alone, and the gather's own clamp to the stack's rows does nothing). So edge e
  reads row src e of the image its type bit selects — and row p of the image of the whole feature table under an
  affine map is the affine image of feature row p.
-/
import proofs.«424295_j87917980549370_2_alg».proof.Proof.Gen.KernelIdeal
import proofs.«424295_j87917980549370_2_alg».proof.Proof.Spec
import proofs.«424295_j87917980549370_2_alg».proof.Proof.LibRowGather
import Idealize.ShloMosaic.Lib.Pipeline.Value
import Idealize.ShloMosaic.Lib.ValueIdx
import Idealize.ShloMosaic.Lib.StableHlo.Predicate
import Idealize.ShloMosaic.PureOps.Ideal.Laws

set_option maxRecDepth 16384

noncomputable section

namespace Cert.KernelIdeal.KMsg

open Cert.KernelIdeal Cert.KernelIdeal.Gen Idealize.ShloMosaic Idealize.ShloMosaic.TcCoe
open Idealize.ShloMosaic.ValueIdx Idealize.ShloMosaic.RowGather

/-- The combined index of every edge: its source index plus 100000 times its type bit, as the host computes it. -/
def cidx (src : IVec S1000000 32) (et : IVec S1000000 1) : IVec S1000000 32 :=
  addi src (muli (broadcastInDim S1000000 ![] bcast_S_S1000000 (constantI S_ 32 100000#32)) (extui 32 et natLt_1_32))

/-- The kernel's message array as its host operations spell it, from the two node tables (t0 for a set type bit,
    t1 for a cleared one), the source indices and the type bits. -/
def kmsg (t0 t1 : FVec Ideal S100000x64 .bf16) (src : IVec S1000000 32) (et : IVec S1000000 1) : FVec Ideal S1000000x64 .f32 :=
  extf .f32
    (Host.gather gather_S200000x64_S1000000x1_S1000000x64_1_0_n_n_0_1_164
      (concatenate S200000x64 0 [⟨S100000x64, t1⟩, ⟨S100000x64, t0⟩] concatenates_S100000x64_S100000x64_S200000x64_d0)
      (broadcastInDim S1000000x1 ![0] bcast_S1000000_S1000000x1_0
        (select (cmpi .slt (cidx src et) (broadcastInDim S1000000 ![] bcast_S_S1000000 (constantI S_ 32 0#32)))
          (addi (cidx src et) (broadcastInDim S1000000 ![] bcast_S_S1000000 (constantI S_ 32 200000#32)))
          (cidx src et))))
    bitsLt_bf16_f32

/-- A source index in [0, 100000) as a signed integer is its unsigned value, below 100000. -/
theorem toNat_of_range (w : BitVec 32) (h0 : 0 ≤ w.toInt) (h1 : w.toInt < 100000) : w.toNat < 100000 := by
  rw [BitVec.toInt_eq_toNat_cond] at h0 h1
  have := w.isLt
  split at h0 <;> omega

/-- A type bit is 0 or 1. -/
theorem bit_cases (b : BitVec 1) : b = 1#1 ∨ b = 0#1 := by
  have : ∀ b : BitVec 1, b = 1#1 ∨ b = 0#1 := by decide
  exact this b

/-- The combined index of one edge, as a number: the source index, plus 100000 when the type bit is set. -/
theorem cidx_toNat (w : BitVec 32) (b : BitVec 1) (hw : w.toNat < 100000) :
    (IntOp.addi w (IntOp.muli 100000#32 (b.setWidth 32))).toNat = w.toNat + (if b = 1#1 then 100000 else 0) := by
  rcases bit_cases b with rfl | rfl
  · have e : IntOp.muli 100000#32 ((1#1 : BitVec 1).setWidth 32) = 100000#32 := by decide
    rw [e, if_pos rfl]
    show (w + 100000#32).toNat = _
    rw [BitVec.toNat_add]
    have : (100000#32 : BitVec 32).toNat = 100000 := by decide
    rw [this]; omega
  · have e : IntOp.muli 100000#32 ((0#1 : BitVec 1).setWidth 32) = 0#32 := by decide
    rw [e, if_neg (by decide)]
    show (w + 0#32).toNat = _
    rw [BitVec.add_zero]; rfl

/-- A word below 2³¹ is not below the zero word as a signed integer, and its signed value is its unsigned one. -/
theorem small_word (v : BitVec 32) (hv : v.toNat < 200000) : IntOp.cmpi .slt v 0#32 = 0#1 ∧ v.toInt.toNat = v.toNat := by
  have hi : v.toInt = v.toNat := StableHlo.Predicate.toInt_eq_toNat_of_lt (by omega)
  refine ⟨?_, by rw [hi]; rfl⟩
  unfold IntOp.cmpi
  have : v.slt 0#32 = false := by
    simp only [BitVec.slt, decide_eq_false_iff_not, not_lt]
    have e0 : (0#32 : BitVec 32).toInt = 0 := by decide
    rw [e0, hi]; omega
  rw [this]; rfl

/-- The start index the kernel's gather reads for edge e, as a row of the stack: its source index, plus 100000 when
    its type bit is set. -/
theorem start_row (src : IVec S1000000 32) (et : IVec S1000000 1) (e : Fin 1000000) (hw : (src (ix1 e)).toNat < 100000) :
    ((broadcastInDim S1000000x1 ![0] bcast_S1000000_S1000000x1_0
        (select (cmpi .slt (cidx src et) (broadcastInDim S1000000 ![] bcast_S_S1000000 (constantI S_ 32 0#32)))
          (addi (cidx src et) (broadcastInDim S1000000 ![] bcast_S_S1000000 (constantI S_ 32 200000#32)))
          (cidx src et))) (ix2 e (0 : Fin 1))).toInt.toNat
      = (src (ix1 e)).toNat + (if et (ix1 e) = 1#1 then 100000 else 0) := by
  have hb : ∀ (y : IVec S1000000 32), broadcastInDim S1000000x1 ![0] bcast_S1000000_S1000000x1_0 y (ix2 e (0 : Fin 1)) = y (ix1 e) :=
    fun y => broadcastInDim_apply _ bcast_S1000000_S1000000x1_0 y (ix2 e (0 : Fin 1)) (ix1 e) (fun a => match a with
      | ⟨0, _⟩ => by show e.val = if (1000000 : Nat) = 1 then 0 else e.val; rw [if_neg (by decide)])
  rw [hb]
  have hc : cidx src et (ix1 e) = IntOp.addi (src (ix1 e)) (IntOp.muli 100000#32 ((et (ix1 e)).setWidth 32)) := rfl
  have hn := cidx_toNat (src (ix1 e)) (et (ix1 e)) hw
  have hlt : (cidx src et (ix1 e)).toNat < 200000 := by rw [hc, hn]; split <;> omega
  obtain ⟨hs, hi⟩ := small_word _ hlt
  show (Scalar.select (IntOp.cmpi .slt (cidx src et (ix1 e)) 0#32) _ (cidx src et (ix1 e))).toInt.toNat = _
  rw [hs, select_zero, hi, hc, hn]

/-- Row p of the affine image of the whole feature table, entry q, is the affine image of feature row p. -/
theorem lin_row (x : Cert.Spec.Nodes) (W : Cert.Spec.Mat 64 64) (b : Cert.Spec.Row 64) (p : Fin 100000) (q : Fin 64) :
    Cert.Spec.lin x W b (ix2 p q) = Cert.Spec.affAt (fun k => x (ix2 p k)) W b q := rfl

/-- The record of the kernel's gather is the row gather's, out of a table of 200000 rows. -/
theorem gdims_eq : gather_S200000x64_S1000000x1_S1000000x64_1_0_n_n_0_1_164
    = rowDims 200000 64 1000000 gather_S200000x64_S1000000x1_S1000000x64_1_0_n_n_0_1_164_wf := rfl

/-- The stack of two tables read at row r, column q: the first table's row r when r < 100000. -/
theorem stack_lo (t0 t1 : FVec Ideal S100000x64 .bf16) (r : Fin 200000) (q : Fin 64) (p : Fin 100000) (h : r.val = p.val) :
    concatenate S200000x64 0 [⟨S100000x64, t1⟩, ⟨S100000x64, t0⟩] concatenates_S100000x64_S100000x64_S200000x64_d0 (ix2 r q)
      = t1 (ix2 p q) := by
  refine concatenate_pair_apply_left (0 : Fin 2) t1 t0 concatenates_S100000x64_S100000x64_S200000x64_d0 (ix2 r q) rfl
    (ix2 p q) (fun b => ?_)
  match b with
  | ⟨0, _⟩ => exact h.symm
  | ⟨1, _⟩ => rfl

/-- … and the second table's row r − 100000 when r ≥ 100000. -/
theorem stack_hi (t0 t1 : FVec Ideal S100000x64 .bf16) (r : Fin 200000) (q : Fin 64) (p : Fin 100000) (h : r.val = p.val + 100000) :
    concatenate S200000x64 0 [⟨S100000x64, t1⟩, ⟨S100000x64, t0⟩] concatenates_S100000x64_S100000x64_S200000x64_d0 (ix2 r q)
      = t0 (ix2 p q) := by
  refine concatenate_pair_apply_right (0 : Fin 2) t1 t0 concatenates_S100000x64_S100000x64_S200000x64_d0 (ix2 r q) rfl rfl
    (ix2 p q) (fun b hne => ?_) ?_
  · match b with
    | ⟨0, _⟩ => exact absurd rfl hne
    | ⟨1, _⟩ => rfl
  · exact h.symm

/-- The kernel's message of edge e, entry q, over any two tables: row src e of the table its type bit selects. -/
theorem kmsg_apply (t0 t1 : FVec Ideal S100000x64 .bf16) (src : IVec S1000000 32) (et : IVec S1000000 1)
    (e : Fin 1000000) (q : Fin 64) (p : Fin 100000) (hp : (src (ix1 e)).toNat = p.val) :
    kmsg t0 t1 src et (ix2 e q) = if et (ix1 e) = 1#1 then t0 (ix2 p q) else t1 (ix2 p q) := by
  have hw : (src (ix1 e)).toNat < 100000 := by rw [hp]; exact p.isLt
  have hrow := start_row src et e hw
  unfold kmsg
  rw [extf_apply, gdims_eq, rowGather_apply (by decide)]
  by_cases hb : et (ix1 e) = 1#1
  · rw [if_pos hb]
    rw [if_pos hb] at hrow
    refine stack_hi t0 t1 _ q p ?_
    show min _ (200000 - 1) = _
    rw [hrow, hp]; have := p.isLt; omega
  · rw [if_neg hb]
    rw [if_neg hb] at hrow
    refine stack_lo t0 t1 _ q p ?_
    show min _ (200000 - 1) = _
    rw [hrow, hp]; have := p.isLt; omega

/-- The kernel's gathered messages are Spec.msg, when every source index is a node. -/
theorem kmsg_eq (x : Cert.Spec.Nodes) (W0 : Cert.Spec.Mat 64 64) (b0 : Cert.Spec.Row 64) (W1 : Cert.Spec.Mat 64 64)
    (b1 : Cert.Spec.Row 64) (src : IVec S1000000 32) (et : IVec S1000000 1)
    (hsrc : ∀ e : Fin 1000000, 0 ≤ (src (ix1 e)).toInt ∧ (src (ix1 e)).toInt < 100000) :
    kmsg (Cert.Spec.lin x W0 b0) (Cert.Spec.lin x W1 b1) src et = Cert.Spec.msg x src et W0 b0 W1 b1 := by
  funext i
  obtain ⟨e, q, rfl⟩ : ∃ (e : Fin 1000000) (q : Fin 64), i = ix2 e q := ⟨i 0, i 1, eq_ix2 i⟩
  have hw := toNat_of_range _ (hsrc e).1 (hsrc e).2
  have hnode : (src (ix1 e)).toNat = (Cert.Spec.node (src (ix1 e))).val := by
    show _ = min (src (ix1 e)).toInt.toNat (100000 - 1)
    have hi : (src (ix1 e)).toInt = (src (ix1 e)).toNat := StableHlo.Predicate.toInt_eq_toNat_of_lt (by omega)
    rw [hi]; show _ = min (src (ix1 e)).toNat (100000 - 1); omega
  rw [kmsg_apply _ _ src et e q (Cert.Spec.node (src (ix1 e))) hnode, lin_row, lin_row]
  rfl

end Cert.KernelIdeal.KMsg

end
-- ==== Proof.Middle.lean ====
/-
  WHAT THE SECOND LAUNCH IS ENTERED WITH. Between the two launches the host stacks the two node tables, forms each
  edge's combined index, gathers the messages, and adds them up per destination node into a zero table: the
  accumulated-message buffer holds that scatter-add of the kernel's message array (KMsg.kmsg of the two tables the
  first launch left, the source indices and the type bits) at the column of destination indices. The seven arguments
  the second launch reads besides are as launched: no host operation writes them and the first launch only reads.
-/
import proofs.«424295_j87917980549370_2_alg».proof.Proof.Gen.KernelIdeal.Frame
import proofs.«424295_j87917980549370_2_alg».proof.Proof.KMsg
import Idealize.ShloMosaic.Lib.StableHlo.Run
import Idealize.ShloMosaic.PureOps.Ideal

set_option maxRecDepth 16384

noncomputable section

namespace Cert.KernelIdeal.Mid

open Cert.KernelIdeal Cert.KernelIdeal.Gen Idealize.ShloMosaic Idealize.ShloMosaic.TcCoe Idealize.ShloMosaic.StableHlo

variable (m : (ℓ : Loc nD τ sig) → Buf (Elt Ideal) ℓ) (ρ : Dev nD → PrngReg)

set_option maxHeartbeats 8000000 in
/-- The accumulated messages: the scatter-add, into zeros at the column of destination indices, of the kernel's
    message array over the two tables the first launch left. -/
theorem in_agg (c : Dev nD) :
    V2 (F := Ideal) m ρ c main_v16
      = Host.scatterAdd scatter_S100000x64_S1000000x1_S1000000x64_1_0_0_1
          (broadcastInDim S100000x64 ![] bcast_S_S100000x64 (constant (F := Ideal) S_ .f32 0x00000000#32))
          (broadcastInDim S1000000x1 ![0] bcast_S1000000_S1000000x1_0 (m ((c : Thread nD τ).loc main_arg2)))
          (KMsg.kmsg ((dat0 (V0 m ρ) c).arrAt 5 cfg0.N) ((dat0 (V0 m ρ) c).arrAt 6 cfg0.N)
            (m ((c : Thread nD τ).loc main_arg1)) (m ((c : Thread nD τ).loc main_arg3))) := by
  show StableHlo.after hostOps1 (W1 m ρ c) (Proc.devRef .tc main_v16) = _
  after_results_simp
  rw [W1_of_ne m ρ c main_arg1 (by decide), W1_of_ne m ρ c main_arg2 (by decide), W1_of_ne m ρ c main_arg3 (by decide),
    show W1 m ρ c (Proc.devRef .tc main_v0_0) = (dat0 (V0 m ρ) c).arrAt 5 cfg0.N from W1_arr m ρ c 5,
    show W1 m ρ c (Proc.devRef .tc main_v0_1) = (dat0 (V0 m ρ) c).arrAt 6 cfg0.N from W1_arr m ρ c 6]
  unfold KMsg.kmsg KMsg.cidx
  rfl

/-- No operation between the launches writes arg0's buffer, and the first launch only reads its arguments: the second launch finds it as launched. -/
theorem in_main_arg0 (c : Dev nD) : V2 (F := Ideal) m ρ c main_arg0 = m ((c : Thread nD τ).loc main_arg0) :=
  calc W2 m ρ c (Proc.devRef .tc main_arg0)
    _ = W1 m ρ c (Proc.devRef .tc main_arg0) := StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W0 m ρ c (Proc.devRef .tc main_arg0) := (W1_arr m ρ c 0).trans (((dat0 (V0 m ρ) c).arrAt_in 0 rfl _).trans (A_eq0 (V0 m ρ) c 0))
    _ = m ((c : Thread nD τ).loc main_arg0) := rfl

/-- No operation between the launches writes arg8's buffer, and the first launch only reads its arguments: the second launch finds it as launched. -/
theorem in_main_arg8 (c : Dev nD) : V2 (F := Ideal) m ρ c main_arg8 = m ((c : Thread nD τ).loc main_arg8) :=
  calc W2 m ρ c (Proc.devRef .tc main_arg8)
    _ = W1 m ρ c (Proc.devRef .tc main_arg8) := StableHlo.after_of_forall_not_mem (b := Proc.devRef .tc main_arg8) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W0 m ρ c (Proc.devRef .tc main_arg8) := W1_of_ne m ρ c main_arg8 (by decide)
    _ = m ((c : Thread nD τ).loc main_arg8) := rfl

/-- No operation between the launches writes arg9's buffer, and the first launch only reads its arguments: the second launch finds it as launched. -/
theorem in_main_arg9 (c : Dev nD) : V2 (F := Ideal) m ρ c main_arg9 = m ((c : Thread nD τ).loc main_arg9) :=
  calc W2 m ρ c (Proc.devRef .tc main_arg9)
    _ = W1 m ρ c (Proc.devRef .tc main_arg9) := StableHlo.after_of_forall_not_mem (b := Proc.devRef .tc main_arg9) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W0 m ρ c (Proc.devRef .tc main_arg9) := W1_of_ne m ρ c main_arg9 (by decide)
    _ = m ((c : Thread nD τ).loc main_arg9) := rfl

/-- No operation between the launches writes arg10's buffer, and the first launch only reads its arguments: the second launch finds it as launched. -/
theorem in_main_arg10 (c : Dev nD) : V2 (F := Ideal) m ρ c main_arg10 = m ((c : Thread nD τ).loc main_arg10) :=
  calc W2 m ρ c (Proc.devRef .tc main_arg10)
    _ = W1 m ρ c (Proc.devRef .tc main_arg10) := StableHlo.after_of_forall_not_mem (b := Proc.devRef .tc main_arg10) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W0 m ρ c (Proc.devRef .tc main_arg10) := W1_of_ne m ρ c main_arg10 (by decide)
    _ = m ((c : Thread nD τ).loc main_arg10) := rfl

/-- No operation between the launches writes arg11's buffer, and the first launch only reads its arguments: the second launch finds it as launched. -/
theorem in_main_arg11 (c : Dev nD) : V2 (F := Ideal) m ρ c main_arg11 = m ((c : Thread nD τ).loc main_arg11) :=
  calc W2 m ρ c (Proc.devRef .tc main_arg11)
    _ = W1 m ρ c (Proc.devRef .tc main_arg11) := StableHlo.after_of_forall_not_mem (b := Proc.devRef .tc main_arg11) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W0 m ρ c (Proc.devRef .tc main_arg11) := W1_of_ne m ρ c main_arg11 (by decide)
    _ = m ((c : Thread nD τ).loc main_arg11) := rfl

/-- No operation between the launches writes arg12's buffer, and the first launch only reads its arguments: the second launch finds it as launched. -/
theorem in_main_arg12 (c : Dev nD) : V2 (F := Ideal) m ρ c main_arg12 = m ((c : Thread nD τ).loc main_arg12) :=
  calc W2 m ρ c (Proc.devRef .tc main_arg12)
    _ = W1 m ρ c (Proc.devRef .tc main_arg12) := StableHlo.after_of_forall_not_mem (b := Proc.devRef .tc main_arg12) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W0 m ρ c (Proc.devRef .tc main_arg12) := W1_of_ne m ρ c main_arg12 (by decide)
    _ = m ((c : Thread nD τ).loc main_arg12) := rfl

/-- No operation between the launches writes arg13's buffer, and the first launch only reads its arguments: the second launch finds it as launched. -/
theorem in_main_arg13 (c : Dev nD) : V2 (F := Ideal) m ρ c main_arg13 = m ((c : Thread nD τ).loc main_arg13) :=
  calc W2 m ρ c (Proc.devRef .tc main_arg13)
    _ = W1 m ρ c (Proc.devRef .tc main_arg13) := StableHlo.after_of_forall_not_mem (b := Proc.devRef .tc main_arg13) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W0 m ρ c (Proc.devRef .tc main_arg13) := W1_of_ne m ρ c main_arg13 (by decide)
    _ = m ((c : Thread nD τ).loc main_arg13) := rfl

end Cert.KernelIdeal.Mid

end
-- ==== Proof.LibMatmulAt.lean ====
/-
  A PLAIN MATRIX PRODUCT READ AT AN INDEX. A tpu.matmul of an M x K block with a K x N matrix into the zero splat,
  at the ideal instance, read at (p, q): the sum over k of l (p, k) * r (k, q).

  The lemma takes the dimension numbers d as given and asks for the four facts that say which operand coordinate an
  output index j and a contraction index k are sent to (left: (j 0, k); right: (k, j 1)) and that the contraction
  shape has one axis of extent K. For a printed record with contracting dims [1] x [0] and no batch axes each is one
  line: the two non-contracting ones by unfolding DotDims.lhsIdx / rhsIdx at the literal axis (dif_neg on the batch
  list, dif_pos on the non-contracting list, both decided), the two contracting ones by
  DotDims.lhsIdx_val_of_single rfl / rhsIdx_val_of_single rfl, the contraction shape's by rfl.
-/
import Idealize.ShloMosaic.PureOps.Ideal.Laws
import Idealize.ShloMosaic.Lib.ValueIdx

noncomputable section

namespace Idealize.ShloMosaic.MatmulAt

open Idealize.ShloMosaic Idealize.ShloMosaic.ValueIdx

/-- A product of an M x K block with a K x N matrix into a zero accumulator, at (p, q): the sum over k of the
    entries' products, given where the dimension numbers send an output index and a contraction index. -/
theorem matmul_at {M K N : Nat} {φ₁ φ₂ : FTy} (d : DotDims ⟨2, ![M, K]⟩ ⟨2, ![K, N]⟩ ⟨2, ![M, N]⟩)
    (hr : d.contr.rank = 1) (hs : d.contr.size ⟨0, by omega⟩ = K)
    (l0 : ∀ (j : (⟨2, ![M, N]⟩ : Shape).Idx) (q : d.contr.Idx), (d.lhsIdx j q 0).val = (j 0).val)
    (l1 : ∀ (j : (⟨2, ![M, N]⟩ : Shape).Idx) (q : d.contr.Idx), (d.lhsIdx j q 1).val = (q ⟨0, by omega⟩).val)
    (r0 : ∀ (j : (⟨2, ![M, N]⟩ : Shape).Idx) (q : d.contr.Idx), (d.rhsIdx j q 0).val = (q ⟨0, by omega⟩).val)
    (r1 : ∀ (j : (⟨2, ![M, N]⟩ : Shape).Idx) (q : d.contr.Idx), (d.rhsIdx j q 1).val = (j 1).val)
    (prec : Option ContractPrecision) (l : FVec Ideal ⟨2, ![M, K]⟩ φ₁) (r : FVec Ideal ⟨2, ![K, N]⟩ φ₂)
    (p : Fin M) (q : Fin N) :
    matmul d prec l r (constant ⟨2, ![M, N]⟩ .f32 0x00000000#32) (ix2 p q) = ∑ k : Fin K, l (ix2 p k) * r (ix2 k q) := by
  simp only [matmul]
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact l0 _ _
    | ⟨1, _⟩ => exact (l1 _ _).trans hk)
  have er : d.rhsIdx (ix2 p q) ((contrEquiv1 d K hr hs).symm k) = ix2 k q := funext fun a => Fin.ext (by
    match a with
    | ⟨0, _⟩ => exact (r0 _ _).trans hk
    | ⟨1, _⟩ => exact r1 _ _)
  rw [el, er]

end Idealize.ShloMosaic.MatmulAt

end
-- ==== Proof.Reg0Value.lean ====
/-
  THE FIRST LAUNCH's two output arrays, as whole-array functions of the arrays the launch finds.
  Each grid point t takes rows 5000·t … 5000·t + 4999 of the feature table and both weight matrices and biases whole,
  and writes the same rows of two tables: the affine images x · W0ᵀ + b0 and x · W1ᵀ + b1 of those rows. The twenty
  blocks tile the 100000 rows, so each table ends as the affine image of the whole feature table (Spec.lin).
-/
import proofs.«424295_j87917980549370_2_alg».proof.Proof.Gen.KernelIdeal.Frame
import proofs.«424295_j87917980549370_2_alg».proof.Proof.Spec
import proofs.«424295_j87917980549370_2_alg».proof.Proof.LibMatmulAt
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Reg0

open Cert.KernelIdeal Cert.KernelIdeal.Gen Idealize.ShloMosaic Idealize.ShloMosaic.TcCoe Idealize.ShloMosaic.ValueIdx
open Idealize.ShloMosaic.Pipeline (Dat Cfg Window)

variable (V : (c : Dev nD) → (b : Ref sig .tc) → Buf (Elt Ideal) ((c : Thread nD τ).loc b))

/-! ## The block product's dimension numbers -/

/-- Where the product's dimension numbers send an output index and a contraction index: the left operand's row is the
    output's row, -/
theorem dot_lhs_0 (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
/-- its column the contraction index, -/
theorem dot_lhs_1 (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
/-- the right operand's row the contraction index, -/
theorem dot_rhs_0 (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
/-- and its column the output's column. -/
theorem dot_rhs_1 (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- The product of a 5000 × 64 block with a 64 × 64 matrix into the zero accumulator, at (p, q): Σ_k l (p, k) · r (k, q). -/
theorem block_matmul_at {φ₁ φ₂ : FTy} (l : FVec Ideal S5000x64 φ₁) (r : FVec Ideal S64x64 φ₂) (p : Fin 5000) (q : Fin 64) :
    matmul dot_S5000x64_S64x64_S5000x64_1_0_0_1_n_n none l r (constant (F := Ideal) S5000x64 .f32 0x00000000#32) (ix2 p q)
      = ∑ k : Fin 64, l (ix2 p k) * r (ix2 k q) :=
  Idealize.ShloMosaic.MatmulAt.matmul_at dot_S5000x64_S64x64_S5000x64_1_0_0_1_n_n rfl rfl dot_lhs_0 dot_lhs_1 dot_rhs_0 dot_rhs_1 none l r p q

/-! ## The body's value at an index -/

/-- The body's first stored value at (p, q) is entry q of the affine image of row p of the feature block,
    Σ_k x (p, k) · W (q, k) + b q: the roundings to bf16 are the identity on the extended reals, the transposed weight
    matrix read at (k, q) is W (q, k), and the bias row broadcast over the 5000 rows reads b q. -/
theorem pay2_at (x0 : Vec Ideal S5000x64 .f32) (x1 : Vec Ideal S64x64 .f32) (x2 : Vec Ideal S64 .f32) (p : Fin 5000) (q : Fin 64) :
    k0_pay2 (F := Ideal) x0 x1 x2 (ix2 p q) = Cert.Spec.affAt (fun k => x0 (ix2 p k)) x1 x2 q := by
  unfold k0_pay2 k0_pay1 Cert.Spec.affAt
  refine congrArg₂ (fun a b : EReal => a + b) ?_ ?_
  · refine (block_matmul_at _ _ p q).trans ?_
    refine Finset.sum_congr rfl fun k _ => ?_
    refine congrArg₂ (fun a b : EReal => a * b) rfl ?_
    exact transpose_ix2_apply _ _ k q
  · refine (broadcastTo_1b_ab_apply _ _ p q).trans ?_
    exact shapeCast_a_1a_apply _ _ 0 q

/-- The body's second stored value is the same expression of the feature block and the other weight matrix and bias. -/
theorem pay3_eq_pay2 (x0 : Vec Ideal S5000x64 .f32) (x3 : Vec Ideal S64x64 .f32) (x4 : Vec Ideal S64 .f32) :
    k0_pay3 (F := Ideal) x0 x3 x4 = k0_pay2 (F := Ideal) x0 x3 x4 := rfl

/-- Two affine entries agree when their rows, the weight rows they read and the bias entries they read agree. -/
theorem affAt_congr {f g : Fin 64 → EReal} {W W' : Cert.Spec.Mat 64 64} {b b' : Cert.Spec.Row 64} (q : Fin 64)
    (hf : ∀ k, f k = g k) (hW : ∀ k, W (ix2 q k) = W' (ix2 q k)) (hb : b (ix1 q) = b' (ix1 q)) :
    Cert.Spec.affAt f W b q = Cert.Spec.affAt g W' b' q := by
  unfold Cert.Spec.affAt
  rw [hb]
  refine congrArg (fun a : EReal => a + b' (ix1 q)) ?_
  exact Finset.sum_congr rfl fun k _ => by rw [hf k, hW k]

/-! ## The blocks at a grid point -/

theorem hz2 : (![0, 0] : Fin 2 → Nat) = fun _ => 0 := funext fun a => by fin_cases a <;> rfl
theorem hz1 : (![0] : Fin 1 → Nat) = fun _ => 0 := funext fun a => by fin_cases a <;> rfl

/-- The seven index maps at each of the twenty grid points: the feature window and both output windows sit at block row
    t, column block 0; the weight and bias windows at block 0 throughout. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 2) = t.val ∧ win0_5.index t (1 : Fin 2) = 0
    ∧ win0_6.index t (0 : Fin 2) = t.val ∧ win0_6.index t (1 : Fin 2) = 0
    ∧ t.val < 20 :=
  (by decide +kernel : ∀ t : Fin grid0.N, _)

/-- Row p of block t is a row of the table: 5000 · t + p < 100000. -/
theorem row_lt (t : Fin cfg0.N) (p : Fin 5000) : t.val * 5000 + p.val < 100000 := by
  have h20 := (idx_facts t).2.2.2.2.2.2.2.2.2.2.2.2
  have hp := p.isLt
  omega

/-- The feature block at point t is rows 5000·t … 5000·t + 4999 of the feature table. -/
theorem feat_blk_at (c : Dev nD) (t : Fin cfg0.N) (p : Fin 5000) (k : Fin 64) :
    (iblk0 V c 0 t : Vec Ideal S5000x64 .f32) (ix2 p k) = (V c main_arg0 : Cert.Spec.Nodes) (ix2 ⟨t.val * 5000 + p.val, row_lt t p⟩ k) := by
  unfold iblk0
  show (V c main_arg0 : Cert.Spec.Nodes) (((cfg0.win 0).blk t).view.emb (ix2 p k)) = _
  refine congrArg (V c main_arg0 : Cert.Spec.Nodes) ?_
  obtain ⟨e0, e1, -⟩ := idx_facts t
  funext a; apply Fin.ext
  match a with
  | ⟨0, _⟩ => show win0_0.index t (0 : Fin 2) * 5000 + 1 * p.val = t.val * 5000 + p.val; omega
  | ⟨1, _⟩ => show win0_0.index t (1 : Fin 2) * 64 + 1 * k.val = k.val; omega

/-- The first weight window's block is the whole matrix W0 at every point, -/
theorem w0_blk_at (c : Dev nD) (t : Fin cfg0.N) (a b : Fin 64) :
    (iblk0 V c 1 t : Vec Ideal S64x64 .f32) (ix2 a b) = (V c main_arg4 : Cert.Spec.Mat 64 64) (ix2 a b) := by
  unfold iblk0
  show (V c main_arg4 : Cert.Spec.Mat 64 64) (((cfg0.win 1).blk t).view.emb (ix2 a b)) = _
  refine congrArg (V c main_arg4 : Cert.Spec.Mat 64 64) ?_
  obtain ⟨-, -, e0, e1, -⟩ := idx_facts t
  funext d; apply Fin.ext
  match d with
  | ⟨0, _⟩ => show win0_1.index t (0 : Fin 2) * 64 + 1 * a.val = a.val; omega
  | ⟨1, _⟩ => show win0_1.index t (1 : Fin 2) * 64 + 1 * b.val = b.val; omega

/-- the first bias window's the whole row b0, -/
theorem b0_blk_at (c : Dev nD) (t : Fin cfg0.N) (a : Fin 64) :
    (iblk0 V c 2 t : Vec Ideal S64 .f32) (ix1 a) = (V c main_arg5 : Cert.Spec.Row 64) (ix1 a) := by
  unfold iblk0
  show (V c main_arg5 : Cert.Spec.Row 64) (((cfg0.win 2).blk t).view.emb (ix1 a)) = _
  refine congrArg (V c main_arg5 : Cert.Spec.Row 64) ?_
  obtain ⟨-, -, -, -, e0, -⟩ := idx_facts t
  funext d; apply Fin.ext
  match d with
  | ⟨0, _⟩ => show win0_2.index t (0 : Fin 1) * 64 + 1 * a.val = a.val; omega

/-- the second weight window's the whole matrix W1, -/
theorem w1_blk_at (c : Dev nD) (t : Fin cfg0.N) (a b : Fin 64) :
    (iblk0 V c 3 t : Vec Ideal S64x64 .f32) (ix2 a b) = (V c main_arg6 : Cert.Spec.Mat 64 64) (ix2 a b) := by
  unfold iblk0
  show (V c main_arg6 : Cert.Spec.Mat 64 64) (((cfg0.win 3).blk t).view.emb (ix2 a b)) = _
  refine congrArg (V c main_arg6 : Cert.Spec.Mat 64 64) ?_
  obtain ⟨-, -, -, -, -, e0, e1, -⟩ := idx_facts t
  funext d; apply Fin.ext
  match d with
  | ⟨0, _⟩ => show win0_3.index t (0 : Fin 2) * 64 + 1 * a.val = a.val; omega
  | ⟨1, _⟩ => show win0_3.index t (1 : Fin 2) * 64 + 1 * b.val = b.val; omega

/-- and the second bias window's the whole row b1. -/
theorem b1_blk_at (c : Dev nD) (t : Fin cfg0.N) (a : Fin 64) :
    (iblk0 V c 4 t : Vec Ideal S64 .f32) (ix1 a) = (V c main_arg7 : Cert.Spec.Row 64) (ix1 a) := by
  unfold iblk0
  show (V c main_arg7 : Cert.Spec.Row 64) (((cfg0.win 4).blk t).view.emb (ix1 a)) = _
  refine congrArg (V c main_arg7 : Cert.Spec.Row 64) ?_
  obtain ⟨-, -, -, -, -, -, -, e0, -⟩ := idx_facts t
  funext d; apply Fin.ext
  match d with
  | ⟨0, _⟩ => show win0_4.index t (0 : Fin 1) * 64 + 1 * a.val = a.val; omega

/-- The affine expression of the feature block at point t and of a weight block and a bias block that are a whole
    matrix W and a whole row b, at (p, q), is the affine image of the feature table at row 5000·t + p, entry q. -/
theorem block_value_at (c : Dev nD) (t : Fin cfg0.N) (xW : Vec Ideal S64x64 .f32) (xb : Vec Ideal S64 .f32)
    (W : Cert.Spec.Mat 64 64) (b : Cert.Spec.Row 64) (hW : ∀ a k : Fin 64, xW (ix2 a k) = W (ix2 a k))
    (hb : ∀ a : Fin 64, xb (ix1 a) = b (ix1 a)) (p : Fin 5000) (q : Fin 64) :
    k0_pay2 (F := Ideal) (iblk0 V c 0 t) xW xb (ix2 p q)
      = Cert.Spec.lin (V c main_arg0) W b (ix2 ⟨t.val * 5000 + p.val, row_lt t p⟩ q) :=
  (pay2_at (iblk0 V c 0 t) xW xb p q).trans
    (affAt_congr q (fun k => feat_blk_at V c t p k) (fun k => hW q k) (hb q))

/-! ## From the blocks to the first table -/

/-- A table read through the first output window's block at point t is read at rows 5000·t … 5000·t + 4999. -/
theorem read_out5_at (G : Cert.Spec.Nodes) (t : Fin cfg0.N) (p : Fin 5000) (q : Fin 64) :
    ((cfg0.win 5).blk t).view.read (Elt Ideal) G (ix2 p q) = G (ix2 ⟨t.val * 5000 + p.val, row_lt t p⟩ q) := by
  show G (((cfg0.win 5).blk t).view.emb (ix2 p q)) = _
  refine congrArg G ?_
  obtain ⟨-, -, -, -, -, -, -, -, e0, e1, -⟩ := idx_facts t
  funext a; apply Fin.ext
  match a with
  | ⟨0, _⟩ => show win0_5.index t (0 : Fin 2) * 5000 + 1 * p.val = t.val * 5000 + p.val; omega
  | ⟨1, _⟩ => show win0_5.index t (1 : Fin 2) * 64 + 1 * q.val = q.val; omega

/-- What point t writes back through the first output window is block t of the affine image x · W0ᵀ + b0. -/
theorem flushed5_eq (c : Dev nD) (t : Fin cfg0.N) :
    (dat0 (F := Ideal) V c).flushed 5 t = ((cfg0.win 5).blk t).view.read (Elt Ideal) (Cert.Spec.lin (V c main_arg0) (V c main_arg4) (V c main_arg5)) := by
  show (cfg0.win 5).cut (grid0.coords t) ((dat0 V c).after 5 t) = _
  rw [after0_5]
  unfold out0_5
  rw [View.canon_unit_zero hz2]
  simp only [View.ld_unit_zero (S := S5000x64) hz2, View.ld_unit_zero (S := S64x64) hz2, View.ld_unit_zero (S := S64) hz1]
  funext j
  obtain ⟨p, q, rfl⟩ : ∃ (p : Fin 5000) (q : Fin 64), j = ix2 p q := ⟨j 0, j 1, eq_ix2 (n0 := 5000) (n1 := 64) j⟩
  refine Eq.trans ?_ (read_out5_at (Cert.Spec.lin (V c main_arg0) (V c main_arg4) (V c main_arg5)) t p q).symm
  exact block_value_at V c t (iblk0 V c 1 t) (iblk0 V c 2 t) (V c main_arg4) (V c main_arg5)
    (fun a k => w0_blk_at V c t a k) (fun a => b0_blk_at V c t a) p q

/-- An index of the table is in point t's block of the first output window iff each coordinate is in the block's range. -/
theorem mem_blk5 (t : Fin cfg0.N) (i : S100000x64.Idx) :
    i ∈ ((cfg0.win 5).blk t).view.set ↔ ∀ a : Fin 2, win0_5.index t a * S5000x64.size a ≤ (i a).val ∧ (i a).val < win0_5.index t a * S5000x64.size a + S5000x64.size a := by
  show i ∈ ((View.whole main_v0_0).slice (win0_5.rect t)).set ↔ _
  rw [View.set_slice_whole, Rect.mem_set_unit]
  exact Iff.rfl

/-- The twenty blocks tile the table: row r lies in the block of point r / 5000. -/
theorem cover5 (i : S100000x64.Idx) : ∃ t : Fin cfg0.N, (cfg0.win 5).flush t = true ∧ i ∈ ((cfg0.win 5).blk t).view.set := by
  have hi0 : (i 0).val < 100000 := (i 0).isLt
  have hi1 : (i 1).val < 64 := (i 1).isLt
  have hN : (i 0).val / 5000 < cfg0.N := by show _ < grid0.N; rw [N_0]; omega
  obtain ⟨-, -, -, -, -, -, -, -, e0, e1, -⟩ := idx_facts ⟨(i 0).val / 5000, hN⟩
  refine ⟨⟨(i 0).val / 5000, hN⟩, flush0_5 _, ?_⟩
  rw [mem_blk5]
  intro a
  match a with
  | ⟨0, _⟩ =>
    show win0_5.index ⟨(i 0).val / 5000, hN⟩ (0 : Fin 2) * 5000 ≤ (i 0).val ∧ (i 0).val < win0_5.index ⟨(i 0).val / 5000, hN⟩ (0 : Fin 2) * 5000 + 5000
    rw [e0]; show (i 0).val / 5000 * 5000 ≤ (i 0).val ∧ (i 0).val < (i 0).val / 5000 * 5000 + 5000
    omega
  | ⟨1, _⟩ =>
    show win0_5.index ⟨(i 0).val / 5000, hN⟩ (1 : Fin 2) * 64 ≤ (i 1).val ∧ (i 1).val < win0_5.index ⟨(i 0).val / 5000, hN⟩ (1 : Fin 2) * 64 + 64
    rw [e1]; omega

/-! ## From the blocks to the second table -/

/-- A table read through the second output window's block at point t is read at rows 5000·t … 5000·t + 4999. -/
theorem read_out6_at (G : Cert.Spec.Nodes) (t : Fin cfg0.N) (p : Fin 5000) (q : Fin 64) :
    ((cfg0.win 6).blk t).view.read (Elt Ideal) G (ix2 p q) = G (ix2 ⟨t.val * 5000 + p.val, row_lt t p⟩ q) := by
  show G (((cfg0.win 6).blk t).view.emb (ix2 p q)) = _
  refine congrArg G ?_
  obtain ⟨-, -, -, -, -, -, -, -, -, -, e0, e1, -⟩ := idx_facts t
  funext a; apply Fin.ext
  match a with
  | ⟨0, _⟩ => show win0_6.index t (0 : Fin 2) * 5000 + 1 * p.val = t.val * 5000 + p.val; omega
  | ⟨1, _⟩ => show win0_6.index t (1 : Fin 2) * 64 + 1 * q.val = q.val; omega

/-- What point t writes back through the second output window is block t of the affine image x · W1ᵀ + b1. -/
theorem flushed6_eq (c : Dev nD) (t : Fin cfg0.N) :
    (dat0 (F := Ideal) V c).flushed 6 t = ((cfg0.win 6).blk t).view.read (Elt Ideal) (Cert.Spec.lin (V c main_arg0) (V c main_arg6) (V c main_arg7)) := by
  show (cfg0.win 6).cut (grid0.coords t) ((dat0 V c).after 6 t) = _
  rw [after0_6]
  unfold out0_6
  rw [View.canon_unit_zero hz2]
  simp only [View.ld_unit_zero (S := S5000x64) hz2, View.ld_unit_zero (S := S64x64) hz2, View.ld_unit_zero (S := S64) hz1]
  funext j
  obtain ⟨p, q, rfl⟩ : ∃ (p : Fin 5000) (q : Fin 64), j = ix2 p q := ⟨j 0, j 1, eq_ix2 (n0 := 5000) (n1 := 64) j⟩
  refine Eq.trans ?_ (read_out6_at (Cert.Spec.lin (V c main_arg0) (V c main_arg6) (V c main_arg7)) t p q).symm
  refine (congrFun (pay3_eq_pay2 (iblk0 V c 0 t) (iblk0 V c 3 t) (iblk0 V c 4 t)) (ix2 p q)).trans ?_
  exact block_value_at V c t (iblk0 V c 3 t) (iblk0 V c 4 t) (V c main_arg6) (V c main_arg7)
    (fun a k => w1_blk_at V c t a k) (fun a => b1_blk_at V c t a) p q

/-- An index of the table is in point t's block of the second output window iff each coordinate is in the block's range. -/
theorem mem_blk6 (t : Fin cfg0.N) (i : S100000x64.Idx) :
    i ∈ ((cfg0.win 6).blk t).view.set ↔ ∀ a : Fin 2, win0_6.index t a * S5000x64.size a ≤ (i a).val ∧ (i a).val < win0_6.index t a * S5000x64.size a + S5000x64.size a := by
  show i ∈ ((View.whole main_v0_1).slice (win0_6.rect t)).set ↔ _
  rw [View.set_slice_whole, Rect.mem_set_unit]
  exact Iff.rfl

/-- The twenty blocks tile the table: row r lies in the block of point r / 5000. -/
theorem cover6 (i : S100000x64.Idx) : ∃ t : Fin cfg0.N, (cfg0.win 6).flush t = true ∧ i ∈ ((cfg0.win 6).blk t).view.set := by
  have hi0 : (i 0).val < 100000 := (i 0).isLt
  have hi1 : (i 1).val < 64 := (i 1).isLt
  have hN : (i 0).val / 5000 < cfg0.N := by show _ < grid0.N; rw [N_0]; omega
  obtain ⟨-, -, -, -, -, -, -, -, -, -, e0, e1, -⟩ := idx_facts ⟨(i 0).val / 5000, hN⟩
  refine ⟨⟨(i 0).val / 5000, hN⟩, flush0_6 _, ?_⟩
  rw [mem_blk6]
  intro a
  match a with
  | ⟨0, _⟩ =>
    show win0_6.index ⟨(i 0).val / 5000, hN⟩ (0 : Fin 2) * 5000 ≤ (i 0).val ∧ (i 0).val < win0_6.index ⟨(i 0).val / 5000, hN⟩ (0 : Fin 2) * 5000 + 5000
    rw [e0]; show (i 0).val / 5000 * 5000 ≤ (i 0).val ∧ (i 0).val < (i 0).val / 5000 * 5000 + 5000
    omega
  | ⟨1, _⟩ =>
    show win0_6.index ⟨(i 0).val / 5000, hN⟩ (1 : Fin 2) * 64 ≤ (i 1).val ∧ (i 1).val < win0_6.index ⟨(i 0).val / 5000, hN⟩ (1 : Fin 2) * 64 + 64
    rw [e1]; omega

/-! ## The two tables -/

/-- The table written through window 5 ends as x · W0ᵀ + b0 of the arrays the launch finds. -/
theorem arr5 (c : Dev nD) :
    (dat0 (F := Ideal) V c).arrAt 5 cfg0.N = Cert.Spec.lin (V c main_arg0) (V c main_arg4) (V c main_arg5) :=
  (dat0 (F := Ideal) V c).arrAt_eq_of_cover 5 (Cert.Spec.lin (V c main_arg0) (V c main_arg4) (V c main_arg5))
    (fun t _ => flushed5_eq V c t) cover5

/-- The table written through window 6 ends as x · W1ᵀ + b1 of the arrays the launch finds. -/
theorem arr6 (c : Dev nD) :
    (dat0 (F := Ideal) V c).arrAt 6 cfg0.N = Cert.Spec.lin (V c main_arg0) (V c main_arg6) (V c main_arg7) :=
  (dat0 (F := Ideal) V c).arrAt_eq_of_cover 6 (Cert.Spec.lin (V c main_arg0) (V c main_arg6) (V c main_arg7))
    (fun t _ => flushed6_eq V c t) cover6

end Cert.KernelIdeal.Reg0

end
-- ==== Proof.Reg1Value.lean ====
/-
  THE SECOND LAUNCH's output array, as a whole-array function of the arrays the launch finds.
  Each grid point t takes rows 5000·t … 5000·t + 4999 of the accumulated messages and of the feature table, the four
  gate parameters and the classifier's two whole, and writes the same rows of the [100000, 16] result: the gated
  step and classifier of those rows. The twenty blocks tile the rows, so the result is Spec.gru of the whole arrays.
-/
import proofs.«424295_j87917980549370_2_alg».proof.Proof.Gen.KernelIdeal.Frame
import proofs.«424295_j87917980549370_2_alg».proof.Proof.Spec
import proofs.«424295_j87917980549370_2_alg».proof.Proof.LibMatmulAt
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

set_option maxRecDepth 16384

noncomputable section

namespace Cert.KernelIdeal.Reg1

open Cert.KernelIdeal Cert.KernelIdeal.Gen Idealize.ShloMosaic Idealize.ShloMosaic.TcCoe Idealize.ShloMosaic.ValueIdx
open Idealize.ShloMosaic.Pipeline (Dat Cfg Window)

variable (V : (c : Dev nD) → (b : Ref sig .tc) → Buf (Elt Ideal) ((c : Thread nD τ).loc b))

/-! ## Where the three products' dimension numbers send an output index and a contraction index

Both gate products contract axis 1 of a [5000, 64] block with axis 0 of a [64, 192] matrix, the classifier's axis 1 of
a [5000, 64] block with axis 0 of a [64, 16] matrix; neither has a batch axis. So the left operand is read at
(row of the output, contraction coordinate) and the right one at (contraction coordinate, column of the output). -/

theorem gate_lhs_0 (j : S5000x192.Idx) (q : dot_S5000x64_S64x192_S5000x192_1_0_0_1_n_n.contr.Idx) :
    (dot_S5000x64_S64x192_S5000x192_1_0_0_1_n_n.lhsIdx j q 0).val = (j 0).val := by
  unfold DotDims.lhsIdx
  rw [dif_neg (show ¬(0 : Fin S5000x64.rank) ∈ dot_S5000x64_S64x192_S5000x192_1_0_0_1_n_n.lhsBatch by decide), dif_pos (show (0 : Fin S5000x64.rank) ∈ dot_S5000x64_S64x192_S5000x192_1_0_0_1_n_n.lhsNonContracting by decide)]
  rfl
theorem gate_lhs_1 (j : S5000x192.Idx) (q : dot_S5000x64_S64x192_S5000x192_1_0_0_1_n_n.contr.Idx) :
    (dot_S5000x64_S64x192_S5000x192_1_0_0_1_n_n.lhsIdx j q 1).val = (q ⟨0, by decide⟩).val :=
  dot_S5000x64_S64x192_S5000x192_1_0_0_1_n_n.lhsIdx_val_of_single rfl j q
theorem gate_rhs_0 (j : S5000x192.Idx) (q : dot_S5000x64_S64x192_S5000x192_1_0_0_1_n_n.contr.Idx) :
    (dot_S5000x64_S64x192_S5000x192_1_0_0_1_n_n.rhsIdx j q 0).val = (q ⟨0, by decide⟩).val :=
  dot_S5000x64_S64x192_S5000x192_1_0_0_1_n_n.rhsIdx_val_of_single rfl j q
theorem gate_rhs_1 (j : S5000x192.Idx) (q : dot_S5000x64_S64x192_S5000x192_1_0_0_1_n_n.contr.Idx) :
    (dot_S5000x64_S64x192_S5000x192_1_0_0_1_n_n.rhsIdx j q 1).val = (j 1).val := by
  unfold DotDims.rhsIdx
  rw [dif_neg (show ¬(1 : Fin S64x192.rank) ∈ dot_S5000x64_S64x192_S5000x192_1_0_0_1_n_n.rhsBatch by decide), dif_pos (show (1 : Fin S64x192.rank) ∈ dot_S5000x64_S64x192_S5000x192_1_0_0_1_n_n.rhsNonContracting by decide)]
  rfl

theorem cls_lhs_0 (j : S5000x16.Idx) (q : dot_S5000x64_S64x16_S5000x16_1_0_0_1_n_n.contr.Idx) :
    (dot_S5000x64_S64x16_S5000x16_1_0_0_1_n_n.lhsIdx j q 0).val = (j 0).val := by
  unfold DotDims.lhsIdx
  rw [dif_neg (show ¬(0 : Fin S5000x64.rank) ∈ dot_S5000x64_S64x16_S5000x16_1_0_0_1_n_n.lhsBatch by decide), dif_pos (show (0 : Fin S5000x64.rank) ∈ dot_S5000x64_S64x16_S5000x16_1_0_0_1_n_n.lhsNonContracting by decide)]
  rfl
theorem cls_lhs_1 (j : S5000x16.Idx) (q : dot_S5000x64_S64x16_S5000x16_1_0_0_1_n_n.contr.Idx) :
    (dot_S5000x64_S64x16_S5000x16_1_0_0_1_n_n.lhsIdx j q 1).val = (q ⟨0, by decide⟩).val :=
  dot_S5000x64_S64x16_S5000x16_1_0_0_1_n_n.lhsIdx_val_of_single rfl j q
theorem cls_rhs_0 (j : S5000x16.Idx) (q : dot_S5000x64_S64x16_S5000x16_1_0_0_1_n_n.contr.Idx) :
    (dot_S5000x64_S64x16_S5000x16_1_0_0_1_n_n.rhsIdx j q 0).val = (q ⟨0, by decide⟩).val :=
  dot_S5000x64_S64x16_S5000x16_1_0_0_1_n_n.rhsIdx_val_of_single rfl j q
theorem cls_rhs_1 (j : S5000x16.Idx) (q : dot_S5000x64_S64x16_S5000x16_1_0_0_1_n_n.contr.Idx) :
    (dot_S5000x64_S64x16_S5000x16_1_0_0_1_n_n.rhsIdx j q 1).val = (j 1).val := by
  unfold DotDims.rhsIdx
  rw [dif_neg (show ¬(1 : Fin S64x16.rank) ∈ dot_S5000x64_S64x16_S5000x16_1_0_0_1_n_n.rhsBatch by decide), dif_pos (show (1 : Fin S64x16.rank) ∈ dot_S5000x64_S64x16_S5000x16_1_0_0_1_n_n.rhsNonContracting by decide)]
  rfl

/-! ## One gate row and one classifier row at an index -/

/-- A block times the transposed gate weight into the zero splat, plus the bias broadcast over the rows, read at
    (p, j): entry j of the affine image of the block's row p, Σ_k l (p, k) · W (j, k) + b j. -/
theorem gates_at {φ : FTy} (l : FVec Ideal S5000x64 φ) (W : FVec Ideal S192x64 .f32) (b : FVec Ideal S192 .f32)
    (hb : FTy.bf16.bits < FTy.f32.bits) (ht : S192x64.Transposes [1, 0] S64x192)
    (hc : S192.ShapeCasts S1x192) (hbr : S1x192.Broadcasts S5000x192) (p : Fin 5000) (j : Fin 192) :
    addf (matmul dot_S5000x64_S64x192_S5000x192_1_0_0_1_n_n none l
            (transpose S64x192 [1, 0] (truncf .bf16 W hb) ht) (constant S5000x192 .f32 0x00000000#32))
        (broadcastTo S5000x192 (shapeCast S1x192 b hc) hbr) (ix2 p j)
      = Cert.Spec.affAt (fun k => l (ix2 p k)) W b j := by
  rw [addf_apply,
    MatmulAt.matmul_at dot_S5000x64_S64x192_S5000x192_1_0_0_1_n_n rfl rfl gate_lhs_0 gate_lhs_1 gate_rhs_0 gate_rhs_1,
    broadcastTo_1b_ab_apply, shapeCast_a_1a_apply]
  unfold Cert.Spec.affAt
  congr 1
  refine Finset.sum_congr rfl fun k _ => ?_
  rw [transpose_ix2_apply]
  rfl

/-- The hidden block times the transposed classifier weight into the zero splat, plus the bias broadcast over the
    rows, read at (p, c): Σ_d h (p, d) · W (c, d) + b c. -/
theorem cls_at {φ : FTy} (h : FVec Ideal S5000x64 φ) (W : FVec Ideal S16x64 .f32) (b : FVec Ideal S16 .f32)
    (hb : FTy.bf16.bits < FTy.f32.bits) (ht : S16x64.Transposes [1, 0] S64x16)
    (hc : S16.ShapeCasts S1x16) (hbr : S1x16.Broadcasts S5000x16) (p : Fin 5000) (c : Fin 16) :
    addf (matmul dot_S5000x64_S64x16_S5000x16_1_0_0_1_n_n none h
            (transpose S64x16 [1, 0] (truncf .bf16 W hb) ht) (constant S5000x16 .f32 0x00000000#32))
        (broadcastTo S5000x16 (shapeCast S1x16 b hc) hbr) (ix2 p c)
      = (∑ d : Fin 64, h (ix2 p d) * W (ix2 c d)) + b (ix1 c) := by
  rw [addf_apply,
    MatmulAt.matmul_at dot_S5000x64_S64x16_S5000x16_1_0_0_1_n_n rfl rfl cls_lhs_0 cls_lhs_1 cls_rhs_0 cls_rhs_1,
    broadcastTo_1b_ab_apply, shapeCast_a_1a_apply]
  congr 1
  refine Finset.sum_congr rfl fun d _ => ?_
  rw [transpose_ix2_apply]
  rfl

/-! ## The gated step at an index -/

/-- The logistic of a block at an index is the logistic of the entry. -/
theorem logistic_at {s : Shape} {φ : FTy} (a : FVec Ideal s φ) (i : s.Idx) : logistic a i = Ideal.logistic (a i) := rfl
/-- The hyperbolic tangent of a block at an index is that of the entry. -/
theorem tanh_at {s : Shape} {φ : FTy} (a : FVec Ideal s φ) (i : s.Idx) : tanh a i = Ideal.tanh (a i) := rfl

/-- Entry d of gate g of a row of 192 sits at column 64 · g + d. -/
theorem gate_val (g : Fin 3) (d : Fin 64) : (Cert.Spec.gate g d).val = 64 * g.val + d.val := rfl

/-- The three column slices of width 64 of a [5000, 192] block, read at (p, d): the block at column gate g d. -/
theorem slice0_at (x : FVec Ideal S5000x192 .f32) (h : S5000x192.Slices ![0, 0] S5000x64) (p : Fin 5000) (d : Fin 64) :
    extractStridedSlice S5000x64 ![0, 0] x h (ix2 p d) = x (ix2 p (Cert.Spec.gate 0 d)) :=
  slice2_axis1_apply 0 x h p d (Cert.Spec.gate 0 d) (by rw [gate_val]; show 64 * 0 + d.val = 0 + d.val; omega)
theorem slice1_at (x : FVec Ideal S5000x192 .f32) (h : S5000x192.Slices ![0, 64] S5000x64) (p : Fin 5000) (d : Fin 64) :
    extractStridedSlice S5000x64 ![0, 64] x h (ix2 p d) = x (ix2 p (Cert.Spec.gate 1 d)) :=
  slice2_axis1_apply 64 x h p d (Cert.Spec.gate 1 d) (by rw [gate_val]; show 64 * 1 + d.val = 64 + d.val; omega)
theorem slice2_at (x : FVec Ideal S5000x192 .f32) (h : S5000x192.Slices ![0, 128] S5000x64) (p : Fin 5000) (d : Fin 64) :
    extractStridedSlice S5000x64 ![0, 128] x h (ix2 p d) = x (ix2 p (Cert.Spec.gate 2 d)) :=
  slice2_axis1_apply 128 x h p d (Cert.Spec.gate 2 d) (by rw [gate_val]; show 64 * 2 + d.val = 128 + d.val; omega)

/-- The gated step on two gate blocks gi, gh and the state block h, read at (p, d): with r and z the logistics of the
    first two gates' sums and n the hyperbolic tangent of the third's, (1 − z) · n + z · h (p, d), every gate entry read at
    its column 64 · g + d. -/
theorem step_at (gi gh : FVec Ideal S5000x192 .f32) (h : FVec Ideal S5000x64 .f32)
    (h0 : S5000x192.Slices ![0, 0] S5000x64) (h1 : S5000x192.Slices ![0, 64] S5000x64)
    (h2 : S5000x192.Slices ![0, 128] S5000x64) (p : Fin 5000) (d : Fin 64) :
    addf (mulf (subf (broadcast S5000x64 (Scalar.ofBits (F := Ideal) .f32 0x3F800000#32))
              (logistic (addf (extractStridedSlice S5000x64 ![0, 64] gi h1) (extractStridedSlice S5000x64 ![0, 64] gh h1))))
            (tanh (addf (extractStridedSlice S5000x64 ![0, 128] gi h2)
              (mulf (logistic (addf (extractStridedSlice S5000x64 ![0, 0] gi h0) (extractStridedSlice S5000x64 ![0, 0] gh h0)))
                (extractStridedSlice S5000x64 ![0, 128] gh h2)))))
        (mulf (logistic (addf (extractStridedSlice S5000x64 ![0, 64] gi h1) (extractStridedSlice S5000x64 ![0, 64] gh h1))) h)
        (ix2 p d)
      = (Cert.Spec.one - Ideal.logistic (gi (ix2 p (Cert.Spec.gate 1 d)) + gh (ix2 p (Cert.Spec.gate 1 d))))
          * Ideal.tanh (gi (ix2 p (Cert.Spec.gate 2 d))
              + Ideal.logistic (gi (ix2 p (Cert.Spec.gate 0 d)) + gh (ix2 p (Cert.Spec.gate 0 d))) * gh (ix2 p (Cert.Spec.gate 2 d)))
        + Ideal.logistic (gi (ix2 p (Cert.Spec.gate 1 d)) + gh (ix2 p (Cert.Spec.gate 1 d))) * h (ix2 p d) := by
  simp only [addf_apply, mulf_apply, subf_apply, logistic_at, tanh_at, broadcast_apply, slice0_at, slice1_at, slice2_at]
  rfl

/-- THE HIDDEN BLOCK at (p, d): the updated hidden state of row p of the message block x0 and the feature block x1,
    entry d. -/
theorem hidden_at (x0 x1 : Vec Ideal S5000x64 .f32) (x2 x3 : Vec Ideal S192x64 .f32) (x4 x5 : Vec Ideal S192 .f32)
    (p : Fin 5000) (d : Fin 64) :
    k1_pay2 (F := Ideal) x0 x1 x2 x3 x4 x5 (ix2 p d)
      = Cert.Spec.hidden (fun k => x0 (ix2 p k)) (fun k => x1 (ix2 p k)) x2 x3 x4 x5 d := by
  unfold k1_pay2
  dsimp only
  rw [shapeCast_self]
  refine (step_at _ _ _ _ _ _ p d).trans ?_
  rw [gates_at, gates_at, gates_at, gates_at, gates_at, gates_at]
  rfl

/-! ## The body's payload at an index -/

/-- THE STORED BLOCK at (p, c): the classifier row c applied to the updated hidden state of row p of the two input
    blocks, Σ_d h' d · W_out (c, d) + b_out c. -/
theorem payload_at (x0 x1 : Vec Ideal S5000x64 .f32) (x2 x3 : Vec Ideal S192x64 .f32) (x4 x5 : Vec Ideal S192 .f32)
    (x6 : Vec Ideal S16x64 .f32) (x7 : Vec Ideal S16 .f32) (p : Fin 5000) (c : Fin 16) :
    k1_pay1 (F := Ideal) (k1_pay2 x0 x1 x2 x3 x4 x5) (k1_pay3 x6) (constant (F := Ideal) S5000x16 .f32 0x00000000#32) x7 (ix2 p c)
      = (∑ d : Fin 64, Cert.Spec.hidden (fun k => x0 (ix2 p k)) (fun k => x1 (ix2 p k)) x2 x3 x4 x5 d * x6 (ix2 c d))
          + x7 (ix1 c) := by
  unfold k1_pay1 k1_pay3
  dsimp only
  refine (cls_at _ _ _ _ _ _ _ p c).trans ?_
  congr 1
  refine Finset.sum_congr rfl fun d _ => ?_
  rw [hidden_at]

/-- The gated step and classifier of whole arrays at an index whose coordinates are (r, q). -/
theorem gru_at (agg x : Cert.Spec.Nodes) (Wih Whh : Cert.Spec.Mat 192 64) (bih bhh : Cert.Spec.Row 192)
    (Wout : Cert.Spec.Mat 16 64) (bout : Cert.Spec.Row 16) (r : Fin 100000) (q : Fin 16) (j : S100000x16.Idx)
    (h0 : (j 0).val = r.val) (h1 : (j 1).val = q.val) :
    Cert.Spec.gru agg x Wih Whh bih bhh Wout bout j
      = (∑ d : Fin 64, Cert.Spec.hidden (fun k => agg (ix2 r k)) (fun k => x (ix2 r k)) Wih Whh bih bhh d * Wout (ix2 q d))
          + bout (ix1 q) := by
  obtain rfl : j = ix2 r q := funext fun a => Fin.ext (by
    match a with
    | ⟨0, _⟩ => exact h0
    | ⟨1, _⟩ => exact h1)
  rfl

/-! ## From blocks to the array -/

/-- The zero offsets of a rank-2 rectangle, as the constant function. -/
theorem hz2 : (![0, 0] : Fin 2 → Nat) = fun _ => 0 := funext fun a => by fin_cases a <;> rfl
/-- The zero offset of a rank-1 rectangle, as the constant function. -/
theorem hz1 : (![0] : Fin 1 → Nat) = fun _ => 0 := funext fun a => by fin_cases a <;> rfl

/-- The block index maps at each of the twenty grid points: the two row-blocked inputs and the output sit at block row t
    and block column 0; the six parameter windows at block 0 on every axis. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 1) = 0
    ∧ win1_5.index t (0 : Fin 1) = 0
    ∧ win1_6.index t (0 : Fin 2) = 0 ∧ win1_6.index t (1 : Fin 2) = 0
    ∧ win1_7.index t (0 : Fin 1) = 0
    ∧ win1_8.index t (0 : Fin 2) = t.val ∧ win1_8.index t (1 : Fin 2) = 0 :=
  (by decide +kernel : ∀ t : Fin grid1.N, _)

/-- Row p of the message block at point t is row 5000 · t + p of the accumulated messages. -/
theorem rows0 (c : Dev nD) (t : Fin cfg1.N) (p : Fin 5000) (k : Fin 64) (r : Fin 100000)
    (hr : r.val = 5000 * t.val + p.val) :
    (iblk1 V c 0 t : Vec Ideal S5000x64 .f32) (ix2 p k) = (V c main_v16 : Vec Ideal S100000x64 .f32) (ix2 r k) := by
  obtain ⟨e0, e1, -⟩ := idx_facts t
  unfold iblk1
  rw [View.read_apply]
  show V c main_v16 _ = V c main_v16 _
  congr 1
  funext a
  apply Fin.ext
  match a with
  | ⟨0, _⟩ => show win1_0.index t (0 : Fin 2) * 5000 + 1 * p.val = r.val; rw [e0, hr]; omega
  | ⟨1, _⟩ => show win1_0.index t (1 : Fin 2) * 64 + 1 * k.val = k.val; rw [e1]; omega

/-- Row p of the feature block at point t is row 5000 · t + p of the feature table. -/
theorem rows1 (c : Dev nD) (t : Fin cfg1.N) (p : Fin 5000) (k : Fin 64) (r : Fin 100000)
    (hr : r.val = 5000 * t.val + p.val) :
    (iblk1 V c 1 t : Vec Ideal S5000x64 .f32) (ix2 p k) = (V c main_arg0 : Vec Ideal S100000x64 .f32) (ix2 r k) := by
  obtain ⟨-, -, e0, e1, -⟩ := idx_facts t
  unfold iblk1
  rw [View.read_apply]
  show V c main_arg0 _ = V c main_arg0 _
  congr 1
  funext a
  apply Fin.ext
  match a with
  | ⟨0, _⟩ => show win1_1.index t (0 : Fin 2) * 5000 + 1 * p.val = r.val; rw [e0, hr]; omega
  | ⟨1, _⟩ => show win1_1.index t (1 : Fin 2) * 64 + 1 * k.val = k.val; rw [e1]; omega

/-- Each parameter window's block, at every point, is its whole array: the block index is 0 on every axis. -/
theorem whole2 (c : Dev nD) (t : Fin cfg1.N) :
    (iblk1 V c 2 t : Vec Ideal S192x64 .f32) = (V c main_arg8 : Vec Ideal S192x64 .f32) := by
  obtain ⟨-, -, -, -, e0, e1, -⟩ := idx_facts t
  funext j
  unfold iblk1
  rw [View.read_apply]
  show V c main_arg8 _ = V c main_arg8 _
  congr 1
  funext a
  apply Fin.ext
  match a with
  | ⟨0, _⟩ => show win1_2.index t (0 : Fin 2) * 192 + 1 * (j 0).val = (j 0).val; rw [e0]; omega
  | ⟨1, _⟩ => show win1_2.index t (1 : Fin 2) * 64 + 1 * (j 1).val = (j 1).val; rw [e1]; omega
theorem whole3 (c : Dev nD) (t : Fin cfg1.N) :
    (iblk1 V c 3 t : Vec Ideal S192x64 .f32) = (V c main_arg9 : Vec Ideal S192x64 .f32) := by
  obtain ⟨-, -, -, -, -, -, e0, e1, -⟩ := idx_facts t
  funext j
  unfold iblk1
  rw [View.read_apply]
  show V c main_arg9 _ = V c main_arg9 _
  congr 1
  funext a
  apply Fin.ext
  match a with
  | ⟨0, _⟩ => show win1_3.index t (0 : Fin 2) * 192 + 1 * (j 0).val = (j 0).val; rw [e0]; omega
  | ⟨1, _⟩ => show win1_3.index t (1 : Fin 2) * 64 + 1 * (j 1).val = (j 1).val; rw [e1]; omega
theorem whole4 (c : Dev nD) (t : Fin cfg1.N) :
    (iblk1 V c 4 t : Vec Ideal S192 .f32) = (V c main_arg10 : Vec Ideal S192 .f32) := by
  obtain ⟨-, -, -, -, -, -, -, -, e0, -⟩ := idx_facts t
  funext j
  unfold iblk1
  rw [View.read_apply]
  show V c main_arg10 _ = V c main_arg10 _
  congr 1
  funext a
  apply Fin.ext
  match a with
  | ⟨0, _⟩ => show win1_4.index t (0 : Fin 1) * 192 + 1 * (j 0).val = (j 0).val; rw [e0]; omega
theorem whole5 (c : Dev nD) (t : Fin cfg1.N) :
    (iblk1 V c 5 t : Vec Ideal S192 .f32) = (V c main_arg11 : Vec Ideal S192 .f32) := by
  obtain ⟨-, -, -, -, -, -, -, -, -, e0, -⟩ := idx_facts t
  funext j
  unfold iblk1
  rw [View.read_apply]
  show V c main_arg11 _ = V c main_arg11 _
  congr 1
  funext a
  apply Fin.ext
  match a with
  | ⟨0, _⟩ => show win1_5.index t (0 : Fin 1) * 192 + 1 * (j 0).val = (j 0).val; rw [e0]; omega
theorem whole6 (c : Dev nD) (t : Fin cfg1.N) :
    (iblk1 V c 6 t : Vec Ideal S16x64 .f32) = (V c main_arg12 : Vec Ideal S16x64 .f32) := by
  obtain ⟨-, -, -, -, -, -, -, -, -, -, e0, e1, -⟩ := idx_facts t
  funext j
  unfold iblk1
  rw [View.read_apply]
  show V c main_arg12 _ = V c main_arg12 _
  congr 1
  funext a
  apply Fin.ext
  match a with
  | ⟨0, _⟩ => show win1_6.index t (0 : Fin 2) * 16 + 1 * (j 0).val = (j 0).val; rw [e0]; omega
  | ⟨1, _⟩ => show win1_6.index t (1 : Fin 2) * 64 + 1 * (j 1).val = (j 1).val; rw [e1]; omega
theorem whole7 (c : Dev nD) (t : Fin cfg1.N) :
    (iblk1 V c 7 t : Vec Ideal S16 .f32) = (V c main_arg13 : Vec Ideal S16 .f32) := by
  obtain ⟨-, -, -, -, -, -, -, -, -, -, -, -, e0, -⟩ := idx_facts t
  funext j
  unfold iblk1
  rw [View.read_apply]
  show V c main_arg13 _ = V c main_arg13 _
  congr 1
  funext a
  apply Fin.ext
  match a with
  | ⟨0, _⟩ => show win1_7.index t (0 : Fin 1) * 16 + 1 * (j 0).val = (j 0).val; rw [e0]; omega

/-- WHAT POINT t WRITES BACK is block t of the gated step and classifier of the whole arrays. -/
theorem flushed_eq (c : Dev nD) (t : Fin cfg1.N) :
    (dat1 (F := Ideal) V c).flushed 8 t = ((cfg1.win 8).blk t).view.read (Elt Ideal)
      (Cert.Spec.gru (V c main_v16) (V c main_arg0) (V c main_arg8) (V c main_arg9) (V c main_arg10) (V c main_arg11)
        (V c main_arg12) (V c main_arg13)) := by
  show (cfg1.win 8).cut (grid1.coords t) ((dat1 (F := Ideal) V c).after 8 t) = _
  rw [after1_8]
  unfold out1_8
  rw [View.canon_unit_zero hz2]
  simp only [View.ld_unit_zero (S := S5000x64) hz2, View.ld_unit_zero (S := S192x64) hz2, View.ld_unit_zero (S := S192) hz1,
    View.ld_unit_zero (S := S16x64) hz2, View.ld_unit_zero (S := S16) hz1]
  refine funext fun (j : S5000x16.Idx) => ?_
  obtain ⟨p, q, rfl⟩ : ∃ (p : Fin 5000) (q : Fin 16), j = ix2 p q := ⟨j 0, j 1, eq_ix2 j⟩
  obtain ⟨-, -, -, -, -, -, -, -, -, -, -, -, -, e0, e1⟩ := idx_facts t
  have ht : t.val < 20 := Nat.lt_of_lt_of_eq t.isLt (N_1 : cfg1.N = 20)
  rw [View.read_apply]
  show k1_pay1 (F := Ideal) (k1_pay2 (iblk1 V c 0 t) (iblk1 V c 1 t) (iblk1 V c 2 t) (iblk1 V c 3 t) (iblk1 V c 4 t) (iblk1 V c 5 t))
        (k1_pay3 (iblk1 V c 6 t)) (constant (F := Ideal) S5000x16 .f32 0x00000000#32) (iblk1 V c 7 t) (ix2 p q)
      = Cert.Spec.gru (V c main_v16) (V c main_arg0) (V c main_arg8) (V c main_arg9) (V c main_arg10) (V c main_arg11)
          (V c main_arg12) (V c main_arg13) (((cfg1.win 8).blk t).view.emb (ix2 p q))
  refine (payload_at _ _ _ _ _ _ _ _ p q).trans ?_
  refine Eq.trans ?_ (gru_at _ _ _ _ _ _ _ _ ⟨5000 * t.val + p.val, by omega⟩ q _ ?_ ?_).symm
  · rw [whole2 V c t, whole3 V c t, whole4 V c t, whole5 V c t, whole6 V c t, whole7 V c t]
    simp only [rows0 V c t p _ ⟨5000 * t.val + p.val, by omega⟩ rfl, rows1 V c t p _ ⟨5000 * t.val + p.val, by omega⟩ rfl]
  · show win1_8.index t (0 : Fin 2) * 5000 + 1 * p.val = 5000 * t.val + p.val; rw [e0]; omega
  · show win1_8.index t (1 : Fin 2) * 16 + 1 * q.val = q.val; rw [e1]; omega

/-- An index of the result is in point t's block iff each coordinate is in the block's range on its axis. -/
theorem mem_blk (t : Fin cfg1.N) (i : S100000x16.Idx) :
    i ∈ ((cfg1.win 8).blk t).view.set ↔ ∀ a : Fin 2, win1_8.index t a * S5000x16.size a ≤ (i a).val
      ∧ (i a).val < win1_8.index t a * S5000x16.size a + S5000x16.size a := by
  show i ∈ ((View.whole main_v17).slice (win1_8.rect t)).set ↔ _
  rw [View.set_slice_whole, Rect.mem_set_unit]
  exact Iff.rfl

/-- The twenty row blocks tile the result: row r is in the block of point r / 5000. -/
theorem cover (i : S100000x16.Idx) :
    ∃ t : Fin cfg1.N, (cfg1.win 8).flush t = true ∧ i ∈ ((cfg1.win 8).blk t).view.set := by
  have hi0 : (i 0).val < 100000 := (i 0).isLt
  have hi1 : (i 1).val < 16 := (i 1).isLt
  have hN : cfg1.N = 20 := N_1
  obtain ⟨t, ht⟩ : ∃ t : Fin cfg1.N, t.val = (i 0).val / 5000 := ⟨⟨(i 0).val / 5000, by rw [hN]; omega⟩, rfl⟩
  obtain ⟨-, -, -, -, -, -, -, -, -, -, -, -, -, e0, e1⟩ := idx_facts t
  refine ⟨t, flush1_8 t, ?_⟩
  rw [mem_blk]
  intro a
  match a with
  | ⟨0, _⟩ =>
    show win1_8.index t (0 : Fin 2) * 5000 ≤ (i 0).val ∧ (i 0).val < win1_8.index t (0 : Fin 2) * 5000 + 5000
    rw [e0, ht]; omega
  | ⟨1, _⟩ =>
    show win1_8.index t (1 : Fin 2) * 16 ≤ (i 1).val ∧ (i 1).val < win1_8.index t (1 : Fin 2) * 16 + 16
    rw [e1]; omega

/-- The result written through window 8 ends as the gated step and classifier of the arrays the launch finds. -/
theorem arr8 (c : Dev nD) :
    (dat1 (F := Ideal) V c).arrAt 8 cfg1.N
      = Cert.Spec.gru (V c main_v16) (V c main_arg0) (V c main_arg8) (V c main_arg9) (V c main_arg10) (V c main_arg11)
          (V c main_arg12) (V c main_arg13) := by
  exact (dat1 (F := Ideal) V c).arrAt_eq_of_cover 8
    (Cert.Spec.gru (V c main_v16) (V c main_arg0) (V c main_arg8) (V c main_arg9) (V c main_arg10) (V c main_arg11)
      (V c main_arg12) (V c main_arg13))
    (fun t _ => flushed_eq V c t) cover

end Cert.KernelIdeal.Reg1

end
-- ==== Proof.RefMsg.lean ====
/-
  THE REFERENCE's message array is Spec.msg, when every source index is a node.
  The reference first turns a negative index into index + 100000 (an index that is already ≥ 0 is left alone), then
  gathers the feature row at that index (kept inside the table's rows), multiplies it by each transposed weight matrix,
  adds the bias, and keeps the first image where the edge's type bit is set and the second where it is not. For an
  index in [0, 100000) the gathered row is the source node's row, and each image at (e, q) is
  Σ_k x (src e, k) · W (q, k) + b q.
-/
import proofs.«424295_j87917980549370_2_alg».proof.Proof.Gen.ReferenceIdeal.Read
import proofs.«424295_j87917980549370_2_alg».proof.Proof.Spec
import proofs.«424295_j87917980549370_2_alg».proof.Proof.LibRowGather
import Idealize.ShloMosaic.Lib.Pipeline.Value
import Idealize.ShloMosaic.Lib.ValueIdx
import Idealize.ShloMosaic.Lib.StableHlo.Predicate
import Idealize.ShloMosaic.PureOps.Ideal.Laws

set_option maxRecDepth 16384

noncomputable section

namespace Cert.ReferenceIdeal.Msg

open Cert.ReferenceIdeal Cert.ReferenceIdeal.Gen Cert.ReferenceIdeal.Read Idealize.ShloMosaic Idealize.ShloMosaic.TcCoe
open Idealize.ShloMosaic.ValueIdx Idealize.ShloMosaic.RowGather

/-- A word that is ≥ 0 as a signed integer is not below the zero word. -/
theorem slt_zero_of_nonneg (w : BitVec 32) (h : 0 ≤ w.toInt) : IntOp.cmpi .slt w 0#32 = 0#1 := by
  unfold IntOp.cmpi
  have : w.slt 0#32 = false := by
    simp only [BitVec.slt, decide_eq_false_iff_not, not_lt]
    have e0 : (0#32 : BitVec 32).toInt = 0 := by decide
    rw [e0]; exact h
  rw [this]; rfl

/-- The start index the reference gathers at, for an edge whose source index is ≥ 0: the source index itself. -/
theorem start_eq (x1 : (⟨S1000000, .i32⟩ : BufTy).Contents (Elt Ideal)) (e : Fin 1000000) (h : 0 ≤ (x1 (ix1 e)).toInt) :
    val_main_v5 (F := Ideal) x1 (ix2 e (0 : Fin 1)) = x1 (ix1 e) := by
  have ei : idx_main_v5 (ix2 e (0 : Fin 1)) = ix1 e := funext fun a => Fin.ext (by match a with | ⟨0, _⟩ => rfl)
  rw [val_main_v5_apply, ei, val_main_v4_apply, val_main_v1_apply, val_main_v0_apply, val_main_c_apply,
    slt_zero_of_nonneg _ h, select_zero]

/-- The gathered feature row of edge e is its source node's row. -/
theorem gathered (x0 : (⟨S100000x64, .f32⟩ : BufTy).Contents (Elt Ideal)) (x1 : (⟨S1000000, .i32⟩ : BufTy).Contents (Elt Ideal))
    (e : Fin 1000000) (k : Fin 64) (h : 0 ≤ (x1 (ix1 e)).toInt) :
    val_main_v6 (F := Ideal) x0 x1 (ix2 e k) = x0 (ix2 (Cert.Spec.node (x1 (ix1 e))) k) := by
  unfold val_main_v6
  show Host.gather (rowDims 100000 64 1000000 gather_S100000x64_S1000000x1_S1000000x64_1_0_n_n_0_1_164_wf) x0
      (val_main_v5 (F := Ideal) x1) (ix2 e k) = _
  rw [rowGather_apply (by decide)]
  refine congrArg (fun r : Fin 100000 => x0 (ix2 r k)) (Fin.ext ?_)
  show min (val_main_v5 (F := Ideal) x1 (ix2 e (0 : Fin 1))).toInt.toNat (100000 - 1) = min (x1 (ix1 e)).toInt.toNat (100000 - 1)
  rw [start_eq x1 e h]

/-- One affine image of the gathered rows at (e, q), for the first weight pair. -/
theorem image0 (x0 : (⟨S100000x64, .f32⟩ : BufTy).Contents (Elt Ideal)) (x1 : (⟨S1000000, .i32⟩ : BufTy).Contents (Elt Ideal))
    (x4 : (⟨S64x64, .f32⟩ : BufTy).Contents (Elt Ideal)) (x5 : (⟨S64, .f32⟩ : BufTy).Contents (Elt Ideal))
    (e : Fin 1000000) (q : Fin 64) (h : 0 ≤ (x1 (ix1 e)).toInt) :
    val_main_v11 (F := Ideal) x0 x1 x4 x5 (ix2 e q)
      = Cert.Spec.affAt (fun k => x0 (ix2 (Cert.Spec.node (x1 (ix1 e))) k)) x4 x5 q := by
  rw [val_main_v11_apply, val_main_v8_apply, val_main_v10_apply, val_main_v9_apply]
  unfold Cert.Spec.affAt
  show (∑ k : Fin 64, _) + _ = _
  congr 1
  · refine Finset.sum_congr rfl fun k _ => ?_
    have el : lidx_main_v8 (ix2 e q) k = ix2 e k := funext fun a => Fin.ext (by match a with | ⟨0, _⟩ => rfl | ⟨1, _⟩ => rfl)
    have er : idx_main_v7 (ridx_main_v8 (ix2 e q) k) = ix2 q k := funext fun a => Fin.ext (by match a with | ⟨0, _⟩ => rfl | ⟨1, _⟩ => rfl)
    rw [val_main_v7_apply, el, er, gathered x0 x1 e k h]
  · exact congrArg x5 (funext fun a => Fin.ext (by match a with | ⟨0, _⟩ => rfl))

/-- The same for the second weight pair. -/
theorem image1 (x0 : (⟨S100000x64, .f32⟩ : BufTy).Contents (Elt Ideal)) (x1 : (⟨S1000000, .i32⟩ : BufTy).Contents (Elt Ideal))
    (x6 : (⟨S64x64, .f32⟩ : BufTy).Contents (Elt Ideal)) (x7 : (⟨S64, .f32⟩ : BufTy).Contents (Elt Ideal))
    (e : Fin 1000000) (q : Fin 64) (h : 0 ≤ (x1 (ix1 e)).toInt) :
    val_main_v16 (F := Ideal) x0 x1 x6 x7 (ix2 e q)
      = Cert.Spec.affAt (fun k => x0 (ix2 (Cert.Spec.node (x1 (ix1 e))) k)) x6 x7 q := by
  rw [val_main_v16_apply, val_main_v13_apply, val_main_v15_apply, val_main_v14_apply]
  unfold Cert.Spec.affAt
  show (∑ k : Fin 64, _) + _ = _
  congr 1
  · refine Finset.sum_congr rfl fun k _ => ?_
    have el : lidx_main_v13 (ix2 e q) k = ix2 e k := funext fun a => Fin.ext (by match a with | ⟨0, _⟩ => rfl | ⟨1, _⟩ => rfl)
    have er : idx_main_v12 (ridx_main_v13 (ix2 e q) k) = ix2 q k := funext fun a => Fin.ext (by match a with | ⟨0, _⟩ => rfl | ⟨1, _⟩ => rfl)
    rw [val_main_v12_apply, el, er, gathered x0 x1 e k h]
  · exact congrArg x7 (funext fun a => Fin.ext (by match a with | ⟨0, _⟩ => rfl))

/-- The reference's selected messages are Spec.msg, when every source index is ≥ 0. -/
theorem ref_msg (x0 : (⟨S100000x64, .f32⟩ : BufTy).Contents (Elt Ideal)) (x1 : (⟨S1000000, .i32⟩ : BufTy).Contents (Elt Ideal))
    (x3 : (⟨S1000000, .i1⟩ : BufTy).Contents (Elt Ideal)) (x4 : (⟨S64x64, .f32⟩ : BufTy).Contents (Elt Ideal))
    (x5 : (⟨S64, .f32⟩ : BufTy).Contents (Elt Ideal)) (x6 : (⟨S64x64, .f32⟩ : BufTy).Contents (Elt Ideal))
    (x7 : (⟨S64, .f32⟩ : BufTy).Contents (Elt Ideal))
    (hsrc : ∀ e : Fin 1000000, 0 ≤ (x1 (ix1 e)).toInt ∧ (x1 (ix1 e)).toInt < 100000) :
    val_main_v18 (F := Ideal) x0 x1 x3 x4 x5 x6 x7 = Cert.Spec.msg x0 x1 x3 x4 x5 x6 x7 := by
  funext i
  obtain ⟨e, q, rfl⟩ : ∃ (e : Fin 1000000) (q : Fin 64), i = ix2 e q := ⟨i 0, i 1, eq_ix2 i⟩
  have em : idx_main_v17 (idx_main_call0_v0 (ix2 e q)) = ix1 e := funext fun a => Fin.ext (by match a with | ⟨0, _⟩ => rfl)
  rw [val_main_v18_apply, val_main_call0_v0_apply, val_main_v17_apply, em, image0 x0 x1 x4 x5 e q (hsrc e).1,
    image1 x0 x1 x6 x7 e q (hsrc e).1]
  rfl

end Cert.ReferenceIdeal.Msg

end
-- ==== Proof.RefTail.lean ====
/-
  THE REFERENCE after its scatter-add: the two gate products, the three slices of each, the two logistic gates
  (written out as 1 / (1 + e^(−t))), the tanh candidate, the blend with the feature table and the classifier are,
  index by index, Spec.gru of the accumulated array (carried as one array, never opened) and the arguments.
-/
import proofs.«424295_j87917980549370_2_alg».proof.Proof.Gen.ReferenceIdeal.Read
import proofs.«424295_j87917980549370_2_alg».proof.Proof.Spec
import Idealize.ShloMosaic.Lib.Pipeline.Value
import Idealize.ShloMosaic.Lib.ValueIdx
import Idealize.ShloMosaic.Lib.IdealHost
import Idealize.ShloMosaic.PureOps.Ideal.Laws

set_option maxRecDepth 16384

noncomputable section

namespace Cert.ReferenceIdeal.Tail

open Cert.ReferenceIdeal Cert.ReferenceIdeal.Gen Cert.ReferenceIdeal.Read Idealize.ShloMosaic Idealize.ShloMosaic.TcCoe Idealize.ShloMosaic.ValueIdx

/-- The float word for one, inside the written-out logistic, is the extended real one: 1 / (1 + e^(−t)) is the logistic. -/
theorem logistic_word (t : EReal) :
    Ideal.div (Ideal.ofBits .f32 0x3F800000#32) (Ideal.ofBits .f32 0x3F800000#32 + Ideal.exp (-t)) = Ideal.logistic t := by
  rw [Ideal.ofBits_one_f32]; rfl

/-- The input-side gate product at node p, entry j: the affine image of the accumulated row p under (W_ih, b_ih). -/
theorem gi_at (x0 : (⟨S100000x64, .f32⟩ : BufTy).Contents (Elt Ideal)) (x1 x2 : (⟨S1000000, .i32⟩ : BufTy).Contents (Elt Ideal))
    (x3 : (⟨S1000000, .i1⟩ : BufTy).Contents (Elt Ideal)) (x4 : (⟨S64x64, .f32⟩ : BufTy).Contents (Elt Ideal))
    (x5 : (⟨S64, .f32⟩ : BufTy).Contents (Elt Ideal)) (x6 : (⟨S64x64, .f32⟩ : BufTy).Contents (Elt Ideal))
    (x7 : (⟨S64, .f32⟩ : BufTy).Contents (Elt Ideal)) (x8 : (⟨S192x64, .f32⟩ : BufTy).Contents (Elt Ideal)) (x10 : (⟨S192, .f32⟩ : BufTy).Contents (Elt Ideal))
    (p : Fin 100000) (j : Fin 192) :
    val_main_v26 x0 x1 x2 x3 x4 x5 x6 x7 x8 x10 (ix2 p j)
      = Cert.Spec.affAt (fun k => val_main_v21 x0 x1 x2 x3 x4 x5 x6 x7 (ix2 p k)) x8 x10 j := by
  rw [val_main_v26_apply, val_main_v23_apply, val_main_v25_apply, val_main_v24_apply]
  unfold Cert.Spec.affAt
  rw [Ideal.addf_def]
  refine congrArg₂ (· + ·) ?_ ?_
  · refine Finset.sum_congr rfl fun k _ => ?_
    rw [val_main_v22_apply]
    have e1 : lidx_main_v23 (ix2 p j) k = ix2 p k := funext fun a => Fin.ext (by match a with | ⟨0, _⟩ => rfl | ⟨1, _⟩ => rfl)
    have e2 : idx_main_v22 (ridx_main_v23 (ix2 p j) k) = ix2 j k := funext fun a => Fin.ext (by match a with | ⟨0, _⟩ => rfl | ⟨1, _⟩ => rfl)
    rw [e1, e2]
  · have e3 : idx_main_v24 (idx_main_v25 (ix2 p j)) = ix1 j := funext fun a => Fin.ext (by match a with | ⟨0, _⟩ => rfl)
    rw [e3]

/-- The hidden-side gate product at node p, entry j: the affine image of the feature row p under (W_hh, b_hh). -/
theorem gh_at (x0 : (⟨S100000x64, .f32⟩ : BufTy).Contents (Elt Ideal)) (x9 : (⟨S192x64, .f32⟩ : BufTy).Contents (Elt Ideal))
    (x11 : (⟨S192, .f32⟩ : BufTy).Contents (Elt Ideal)) (p : Fin 100000) (j : Fin 192) :
    val_main_v31 x0 x9 x11 (ix2 p j) = Cert.Spec.affAt (fun k => x0 (ix2 p k)) x9 x11 j := by
  rw [val_main_v31_apply, val_main_v28_apply, val_main_v30_apply, val_main_v29_apply]
  unfold Cert.Spec.affAt
  rw [Ideal.addf_def]
  refine congrArg₂ (· + ·) ?_ ?_
  · refine Finset.sum_congr rfl fun k _ => ?_
    rw [val_main_v27_apply]
    have e1 : lidx_main_v28 (ix2 p j) k = ix2 p k := funext fun a => Fin.ext (by match a with | ⟨0, _⟩ => rfl | ⟨1, _⟩ => rfl)
    have e2 : idx_main_v27 (ridx_main_v28 (ix2 p j) k) = ix2 j k := funext fun a => Fin.ext (by match a with | ⟨0, _⟩ => rfl | ⟨1, _⟩ => rfl)
    rw [e1, e2]
  · have e3 : idx_main_v29 (idx_main_v30 (ix2 p j)) = ix1 j := funext fun a => Fin.ext (by match a with | ⟨0, _⟩ => rfl)
    rw [e3]

/-- The three column slices read entry d of gate g: column 64 · g + d. -/
theorem slice0 (p : Fin 100000) (d : Fin 64) : idx_main_v32 (ix2 p d) = ix2 p (Cert.Spec.gate 0 d) :=
  funext fun a => Fin.ext (by
    match a with
    | ⟨0, _⟩ => rfl
    | ⟨1, _⟩ => show d.val = 64 * 0 + d.val; omega)
theorem slice1 (p : Fin 100000) (d : Fin 64) : idx_main_v33 (ix2 p d) = ix2 p (Cert.Spec.gate 1 d) :=
  funext fun a => Fin.ext (by
    match a with
    | ⟨0, _⟩ => rfl
    | ⟨1, _⟩ => show 64 + d.val = 64 * 1 + d.val; omega)
theorem slice2 (p : Fin 100000) (d : Fin 64) : idx_main_v34 (ix2 p d) = ix2 p (Cert.Spec.gate 2 d) :=
  funext fun a => Fin.ext (by
    match a with
    | ⟨0, _⟩ => rfl
    | ⟨1, _⟩ => show 128 + d.val = 64 * 2 + d.val; omega)

theorem slice0h (p : Fin 100000) (d : Fin 64) : idx_main_v35 (ix2 p d) = ix2 p (Cert.Spec.gate 0 d) := slice0 p d
theorem slice1h (p : Fin 100000) (d : Fin 64) : idx_main_v36 (ix2 p d) = ix2 p (Cert.Spec.gate 1 d) := slice1 p d
theorem slice2h (p : Fin 100000) (d : Fin 64) : idx_main_v37 (ix2 p d) = ix2 p (Cert.Spec.gate 2 d) := slice2 p d

/-- The reset gate at node p, entry d. -/
theorem r_at (x0 : (⟨S100000x64, .f32⟩ : BufTy).Contents (Elt Ideal)) (x1 x2 : (⟨S1000000, .i32⟩ : BufTy).Contents (Elt Ideal))
    (x3 : (⟨S1000000, .i1⟩ : BufTy).Contents (Elt Ideal)) (x4 : (⟨S64x64, .f32⟩ : BufTy).Contents (Elt Ideal))
    (x5 : (⟨S64, .f32⟩ : BufTy).Contents (Elt Ideal)) (x6 : (⟨S64x64, .f32⟩ : BufTy).Contents (Elt Ideal))
    (x7 : (⟨S64, .f32⟩ : BufTy).Contents (Elt Ideal)) (x8 x9 : (⟨S192x64, .f32⟩ : BufTy).Contents (Elt Ideal))
    (x10 x11 : (⟨S192, .f32⟩ : BufTy).Contents (Elt Ideal)) (p : Fin 100000) (d : Fin 64) :
    val_main_v44 x0 x1 x2 x3 x4 x5 x6 x7 x8 x9 x10 x11 (ix2 p d)
      = Ideal.logistic (Cert.Spec.affAt (fun k => val_main_v21 x0 x1 x2 x3 x4 x5 x6 x7 (ix2 p k)) x8 x10 (Cert.Spec.gate 0 d)
          + Cert.Spec.affAt (fun k => x0 (ix2 p k)) x9 x11 (Cert.Spec.gate 0 d)) := by
  rw [val_main_v44_apply, val_main_v43_apply, val_main_cst_2_apply, val_main_v42_apply, val_main_v41_apply,
    val_main_cst_1_apply, val_main_v40_apply, val_main_v39_apply, val_main_v38_apply, val_main_v32_apply,
    val_main_v35_apply, slice0, slice0h, gi_at, gh_at]
  simp only [Ideal.hostDivf_def, Ideal.addf_def, Ideal.hostUnary_exp_def, Ideal.hostNegf_def, Ideal.negf_def,
    Ideal.ofBits_def]
  exact logistic_word _

/-- The update gate at node p, entry d. -/
theorem z_at (x0 : (⟨S100000x64, .f32⟩ : BufTy).Contents (Elt Ideal)) (x1 x2 : (⟨S1000000, .i32⟩ : BufTy).Contents (Elt Ideal))
    (x3 : (⟨S1000000, .i1⟩ : BufTy).Contents (Elt Ideal)) (x4 : (⟨S64x64, .f32⟩ : BufTy).Contents (Elt Ideal))
    (x5 : (⟨S64, .f32⟩ : BufTy).Contents (Elt Ideal)) (x6 : (⟨S64x64, .f32⟩ : BufTy).Contents (Elt Ideal))
    (x7 : (⟨S64, .f32⟩ : BufTy).Contents (Elt Ideal)) (x8 x9 : (⟨S192x64, .f32⟩ : BufTy).Contents (Elt Ideal))
    (x10 x11 : (⟨S192, .f32⟩ : BufTy).Contents (Elt Ideal)) (p : Fin 100000) (d : Fin 64) :
    val_main_v51 x0 x1 x2 x3 x4 x5 x6 x7 x8 x9 x10 x11 (ix2 p d)
      = Ideal.logistic (Cert.Spec.affAt (fun k => val_main_v21 x0 x1 x2 x3 x4 x5 x6 x7 (ix2 p k)) x8 x10 (Cert.Spec.gate 1 d)
          + Cert.Spec.affAt (fun k => x0 (ix2 p k)) x9 x11 (Cert.Spec.gate 1 d)) := by
  rw [val_main_v51_apply, val_main_v50_apply, val_main_cst_4_apply, val_main_v49_apply, val_main_v48_apply,
    val_main_cst_3_apply, val_main_v47_apply, val_main_v46_apply, val_main_v45_apply, val_main_v33_apply,
    val_main_v36_apply, slice1, slice1h, gi_at, gh_at]
  simp only [Ideal.hostDivf_def, Ideal.addf_def, Ideal.hostUnary_exp_def, Ideal.hostNegf_def, Ideal.negf_def,
    Ideal.ofBits_def]
  exact logistic_word _

/-- The candidate state at node p, entry d. -/
theorem n_at (x0 : (⟨S100000x64, .f32⟩ : BufTy).Contents (Elt Ideal)) (x1 x2 : (⟨S1000000, .i32⟩ : BufTy).Contents (Elt Ideal))
    (x3 : (⟨S1000000, .i1⟩ : BufTy).Contents (Elt Ideal)) (x4 : (⟨S64x64, .f32⟩ : BufTy).Contents (Elt Ideal))
    (x5 : (⟨S64, .f32⟩ : BufTy).Contents (Elt Ideal)) (x6 : (⟨S64x64, .f32⟩ : BufTy).Contents (Elt Ideal))
    (x7 : (⟨S64, .f32⟩ : BufTy).Contents (Elt Ideal)) (x8 x9 : (⟨S192x64, .f32⟩ : BufTy).Contents (Elt Ideal))
    (x10 x11 : (⟨S192, .f32⟩ : BufTy).Contents (Elt Ideal)) (p : Fin 100000) (d : Fin 64) :
    val_main_v54 x0 x1 x2 x3 x4 x5 x6 x7 x8 x9 x10 x11 (ix2 p d)
      = Ideal.tanh (Cert.Spec.affAt (fun k => val_main_v21 x0 x1 x2 x3 x4 x5 x6 x7 (ix2 p k)) x8 x10 (Cert.Spec.gate 2 d)
          + Ideal.logistic (Cert.Spec.affAt (fun k => val_main_v21 x0 x1 x2 x3 x4 x5 x6 x7 (ix2 p k)) x8 x10 (Cert.Spec.gate 0 d)
              + Cert.Spec.affAt (fun k => x0 (ix2 p k)) x9 x11 (Cert.Spec.gate 0 d))
            * Cert.Spec.affAt (fun k => x0 (ix2 p k)) x9 x11 (Cert.Spec.gate 2 d)) := by
  rw [val_main_v54_apply, val_main_v53_apply, val_main_v52_apply, r_at, val_main_v34_apply, val_main_v37_apply,
    slice2, slice2h, gi_at, gh_at]
  simp only [Ideal.addf_def, Ideal.mulf_def, Ideal.hostUnary_tanh_def]

/-- The updated hidden state at node p, entry d. -/
theorem h_at (x0 : (⟨S100000x64, .f32⟩ : BufTy).Contents (Elt Ideal)) (x1 x2 : (⟨S1000000, .i32⟩ : BufTy).Contents (Elt Ideal))
    (x3 : (⟨S1000000, .i1⟩ : BufTy).Contents (Elt Ideal)) (x4 : (⟨S64x64, .f32⟩ : BufTy).Contents (Elt Ideal))
    (x5 : (⟨S64, .f32⟩ : BufTy).Contents (Elt Ideal)) (x6 : (⟨S64x64, .f32⟩ : BufTy).Contents (Elt Ideal))
    (x7 : (⟨S64, .f32⟩ : BufTy).Contents (Elt Ideal)) (x8 x9 : (⟨S192x64, .f32⟩ : BufTy).Contents (Elt Ideal))
    (x10 x11 : (⟨S192, .f32⟩ : BufTy).Contents (Elt Ideal)) (p : Fin 100000) (d : Fin 64) :
    val_main_v59 x0 x1 x2 x3 x4 x5 x6 x7 x8 x9 x10 x11 (ix2 p d)
      = Cert.Spec.hidden (fun k => val_main_v21 x0 x1 x2 x3 x4 x5 x6 x7 (ix2 p k)) (fun k => x0 (ix2 p k)) x8 x9 x10 x11 d := by
  rw [val_main_v59_apply, val_main_v57_apply, val_main_v58_apply, val_main_v56_apply, val_main_v55_apply,
    val_main_cst_5_apply, z_at, n_at]
  simp only [Ideal.addf_def, Ideal.mulf_def, Ideal.subf_def, Ideal.ofBits_def]
  rfl

/-- The reference's result is the gated step and classifier of its accumulated array and the arguments. -/
theorem ref_tail (x0 : (⟨S100000x64, .f32⟩ : BufTy).Contents (Elt Ideal)) (x1 x2 : (⟨S1000000, .i32⟩ : BufTy).Contents (Elt Ideal))
    (x3 : (⟨S1000000, .i1⟩ : BufTy).Contents (Elt Ideal)) (x4 : (⟨S64x64, .f32⟩ : BufTy).Contents (Elt Ideal))
    (x5 : (⟨S64, .f32⟩ : BufTy).Contents (Elt Ideal)) (x6 : (⟨S64x64, .f32⟩ : BufTy).Contents (Elt Ideal))
    (x7 : (⟨S64, .f32⟩ : BufTy).Contents (Elt Ideal)) (x8 x9 : (⟨S192x64, .f32⟩ : BufTy).Contents (Elt Ideal))
    (x10 x11 : (⟨S192, .f32⟩ : BufTy).Contents (Elt Ideal)) (x12 : (⟨S16x64, .f32⟩ : BufTy).Contents (Elt Ideal))
    (x13 : (⟨S16, .f32⟩ : BufTy).Contents (Elt Ideal)) :
    val_main_v64 x0 x1 x2 x3 x4 x5 x6 x7 x8 x9 x10 x11 x12 x13
      = Cert.Spec.gru (val_main_v21 x0 x1 x2 x3 x4 x5 x6 x7) x0 x8 x9 x10 x11 x12 x13 := by
  funext i
  obtain ⟨p, c, rfl⟩ : ∃ (p : Fin 100000) (c : Fin 16), i = ix2 p c := ⟨i 0, i 1, eq_ix2 i⟩
  rw [val_main_v64_apply, val_main_v61_apply, val_main_v63_apply, val_main_v62_apply]
  unfold Cert.Spec.gru
  rw [Ideal.addf_def]
  refine congrArg₂ (· + ·) ?_ ?_
  · refine Finset.sum_congr rfl fun k _ => ?_
    rw [val_main_v60_apply]
    have e1 : lidx_main_v61 (ix2 p c) k = ix2 p k := funext fun a => Fin.ext (by match a with | ⟨0, _⟩ => rfl | ⟨1, _⟩ => rfl)
    have e2 : idx_main_v60 (ridx_main_v61 (ix2 p c) k) = ix2 c k := funext fun a => Fin.ext (by match a with | ⟨0, _⟩ => rfl | ⟨1, _⟩ => rfl)
    rw [e1, e2, h_at]
  · have e3 : idx_main_v62 (idx_main_v63 (ix2 p c)) = ix1 c := funext fun a => Fin.ext (by match a with | ⟨0, _⟩ => rfl)
    rw [e3]

end Cert.ReferenceIdeal.Tail

end
-- ==== Proof.lean ====
/-
  THE CERTIFICATE: a graph network's message passing, gated update and classifier, computed two ways.

  The reference gathers each edge's source feature row, applies to it both affine maps (W0, b0) and (W1, b1), keeps
  the one the edge's type bit selects, adds the messages up per destination node, and runs one gated-recurrent step
  and a linear classifier on every node. The kernel applies both affine maps to every NODE first (one launch over
  blocks of 5000 nodes), stacks the two tables and gathers, per edge, row src + 100000 · type of the stack, adds the
  gathered rows up per destination node in the same way, and runs the gated step and classifier in a second launch
  over blocks of 5000 nodes.

  A row gather commutes with a map applied row by row: row src e of (x · Wᵀ + b) is (row src e of x) · Wᵀ + b. That is
  the whole law, and it needs no finiteness: only sums and products in one fixed order on each side. What it does need
  is that src e names a node, 0 ≤ src e < 100000: then the combined index src e + 100000 · type stays inside the
  stack's half its type bit selects, and the reference reads the row src e itself; the precondition says so
  (PreSrc). Both message arrays are then Spec.msg (KMsg, RefMsg); the per-destination sums are ONE scatter-add applied
  to equal arrays, carried unopened; and both gated steps with their classifiers are Spec.gru of that sum and the
  arguments (Reg1Value for the kernel's second launch over Reg0Value's two tables and Middle's host stretch; RefTail
  for the reference, whose logistic gates are written out as 1 / (1 + e^(−t))).

  The three frames are the generated ones (the reference's is its generated run with the result dropped), and the
  kernel is its own idealization (the ideal pass rewrote nothing).
-/
import proofs.«424295_j87917980549370_2_alg».proof.Defs
import proofs.«424295_j87917980549370_2_alg».proof.Proof.Gen.Kernel
import proofs.«424295_j87917980549370_2_alg».proof.Proof.Gen.Kernel.Skeleton
import proofs.«424295_j87917980549370_2_alg».proof.Proof.Gen.Kernel.Launch
import proofs.«424295_j87917980549370_2_alg».proof.Proof.Gen.Kernel.Points
import proofs.«424295_j87917980549370_2_alg».proof.Proof.Gen.Kernel.Frame
import proofs.«424295_j87917980549370_2_alg».proof.Proof.Gen.KernelIdeal
import proofs.«424295_j87917980549370_2_alg».proof.Proof.Gen.KernelIdeal.Skeleton
import proofs.«424295_j87917980549370_2_alg».proof.Proof.Gen.KernelIdeal.Launch
import proofs.«424295_j87917980549370_2_alg».proof.Proof.Gen.KernelIdeal.Points
import proofs.«424295_j87917980549370_2_alg».proof.Proof.Gen.KernelIdeal.Frame
import proofs.«424295_j87917980549370_2_alg».proof.Proof.Gen.ReferenceIdeal
import proofs.«424295_j87917980549370_2_alg».proof.Proof.Gen.ReferenceIdeal.Run
import proofs.«424295_j87917980549370_2_alg».proof.Proof.Gen.ReferenceIdeal.Read
import proofs.«424295_j87917980549370_2_alg».proof.Proof.Gen.Pre_finite_inputs
import proofs.«424295_j87917980549370_2_alg».proof.Proof.Spec
import proofs.«424295_j87917980549370_2_alg».proof.Proof.PreSrc
import proofs.«424295_j87917980549370_2_alg».proof.Proof.KRun
import proofs.«424295_j87917980549370_2_alg».proof.Proof.KMsg
import proofs.«424295_j87917980549370_2_alg».proof.Proof.Middle
import proofs.«424295_j87917980549370_2_alg».proof.Proof.Reg0Value
import proofs.«424295_j87917980549370_2_alg».proof.Proof.Reg1Value
import proofs.«424295_j87917980549370_2_alg».proof.Proof.RefMsg
import proofs.«424295_j87917980549370_2_alg».proof.Proof.RefTail
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.ValueIdx

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- The per-destination sum of the messages, as both programs form it: the scatter-add into zeros, at the column of
    destination indices, of Spec.msg of the arguments. Carried as one array. -/
def aggOf (x : Cert.Spec.Nodes) (src dst : IVec ⟨1, ![1000000]⟩ 32) (et : IVec ⟨1, ![1000000]⟩ 1)
    (W0 : Cert.Spec.Mat 64 64) (b0 : Cert.Spec.Row 64) (W1 : Cert.Spec.Mat 64 64) (b1 : Cert.Spec.Row 64) : Cert.Spec.Nodes :=
  Host.scatterAdd Cert.KernelIdeal.scatter_S100000x64_S1000000x1_S1000000x64_1_0_0_1
    (broadcastInDim Cert.KernelIdeal.S100000x64 ![] Cert.KernelIdeal.Facts₀.bcast_S_S100000x64 (constant (F := Ideal) Cert.KernelIdeal.S_ .f32 0x00000000#32))
    (broadcastInDim Cert.KernelIdeal.S1000000x1 ![0] Cert.KernelIdeal.Facts₀.bcast_S1000000_S1000000x1_0 dst)
    (Cert.Spec.msg x src et W0 b0 W1 b1)

/-- The kernel's second launch leaves Spec.gru of the common sum and the arguments. -/
theorem kernel_value (m : (ℓ : Loc Cert.KernelIdeal.nD Cert.KernelIdeal.τ Cert.KernelIdeal.sig) → Buf (Elt Ideal) ℓ) (ρ : Dev Cert.KernelIdeal.nD → PrngReg) (c : Dev Cert.KernelIdeal.nD)
    (hsrc : ∀ e : Fin 1000000, 0 ≤ ((m ((c.tc : Thread Cert.KernelIdeal.nD Cert.KernelIdeal.τ).loc Cert.KernelIdeal.main_arg1)) (ix1 e)).toInt ∧ ((m ((c.tc : Thread Cert.KernelIdeal.nD Cert.KernelIdeal.τ).loc Cert.KernelIdeal.main_arg1)) (ix1 e)).toInt < 100000) :
    (Cert.KernelIdeal.Gen.dat1 (Cert.KernelIdeal.Gen.V2 m ρ) c).arrAt 8 Cert.KernelIdeal.cfg1.N
      = Cert.Spec.gru (aggOf (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)))
          (m ((c.tc : Thread Cert.KernelIdeal.nD Cert.KernelIdeal.τ).loc Cert.KernelIdeal.main_arg0)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) := by
  rw [Cert.KernelIdeal.Reg1.arr8 (Cert.KernelIdeal.Gen.V2 m ρ) c, Cert.KernelIdeal.Mid.in_agg m ρ c,
    Cert.KernelIdeal.Mid.in_main_arg0 m ρ c, Cert.KernelIdeal.Mid.in_main_arg8 m ρ c, Cert.KernelIdeal.Mid.in_main_arg9 m ρ c,
    Cert.KernelIdeal.Mid.in_main_arg10 m ρ c, Cert.KernelIdeal.Mid.in_main_arg11 m ρ c, Cert.KernelIdeal.Mid.in_main_arg12 m ρ c,
    Cert.KernelIdeal.Mid.in_main_arg13 m ρ c,
    Cert.KernelIdeal.Reg0.arr5 (Cert.KernelIdeal.Gen.V0 m ρ) c, Cert.KernelIdeal.Reg0.arr6 (Cert.KernelIdeal.Gen.V0 m ρ) c]
  show Cert.Spec.gru (Host.scatterAdd _ _ _ (Cert.KernelIdeal.KMsg.kmsg (Cert.Spec.lin (m ((c.tc : Thread Cert.KernelIdeal.nD Cert.KernelIdeal.τ).loc Cert.KernelIdeal.main_arg0)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)))
      (Cert.Spec.lin (m ((c.tc : Thread Cert.KernelIdeal.nD Cert.KernelIdeal.τ).loc Cert.KernelIdeal.main_arg0)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) (m ((c.tc : Thread Cert.KernelIdeal.nD Cert.KernelIdeal.τ).loc Cert.KernelIdeal.main_arg1)) (m ((c.tc : Thread Cert.KernelIdeal.nD Cert.KernelIdeal.τ).loc Cert.KernelIdeal.main_arg3)))) _ _ _ _ _ _ _ = _
  rw [Cert.KernelIdeal.KMsg.kmsg_eq _ _ _ _ _ _ _ hsrc]
  rfl

/-- The reference's result is Spec.gru of the common sum and its arguments. -/
theorem reference_value (m : (ℓ : Loc Cert.ReferenceIdeal.nD Cert.ReferenceIdeal.τ Cert.ReferenceIdeal.sig) → Buf (Elt Ideal) ℓ) (c : Dev Cert.ReferenceIdeal.nD)
    (hsrc : ∀ e : Fin 1000000, 0 ≤ ((m ((c.tc : Thread Cert.ReferenceIdeal.nD Cert.ReferenceIdeal.τ).loc Cert.ReferenceIdeal.main_arg1)) (ix1 e)).toInt ∧ ((m ((c.tc : Thread Cert.ReferenceIdeal.nD Cert.ReferenceIdeal.τ).loc Cert.ReferenceIdeal.main_arg1)) (ix1 e)).toInt < 100000) :
    Cert.ReferenceIdeal.Value.res_main_v64 m c
      = Cert.Spec.gru (aggOf (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)))
          (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) := by
  rw [Cert.ReferenceIdeal.Read.val_main_v64_eq, Cert.ReferenceIdeal.Tail.ref_tail]
  unfold Cert.ReferenceIdeal.Read.val_main_v21
  rw [Cert.ReferenceIdeal.Msg.ref_msg _ _ _ _ _ _ _ hsrc]
  rfl

/-- From memories agreeing on the arguments both programs end with Spec.gru of the common per-destination sum. -/
theorem algebraic : Cert.algebraic_KernelIdeal_ReferenceIdeal := by
  intro m ρ m' ρ' hpre hagree
  have hsrc : ∀ c : Dev Cert.KernelIdeal.nD, ∀ e : Fin 1000000,
      0 ≤ ((m ((c.tc : Thread Cert.KernelIdeal.nD Cert.KernelIdeal.τ).loc Cert.KernelIdeal.main_arg1)) (ix1 e)).toInt ∧ ((m ((c.tc : Thread Cert.KernelIdeal.nD Cert.KernelIdeal.τ).loc Cert.KernelIdeal.main_arg1)) (ix1 e)).toInt < 100000 :=
    fun c e => Cert.PreSrc.src_range _ _ _ _ _ _ _ _ _ _ _ _ _ _ (hpre c) e
  refine ⟨fun c => Cert.Spec.gru (aggOf (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)))
      (m ((c.tc : Thread Cert.KernelIdeal.nD Cert.KernelIdeal.τ).loc Cert.KernelIdeal.main_arg0)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)), ?_, ?_⟩
  · exact (θ_run Cert.KernelIdeal.defs _ _).mono (fun r h c => ⟨(h c).1.trans (kernel_value m ρ c (hsrc c)), (h c).2⟩)
      (Cert.KernelIdeal.KRun.run_value (F := Ideal) m ρ)
  · refine (θ_run Cert.ReferenceIdeal.defs _ _).mono (fun r h c => ⟨(h c).1.trans ?_, (h c).2⟩)
      (Cert.ReferenceIdeal.Value.run (F := Ideal) m' ρ')
    obtain ⟨h0, h1, h2, h3, h4, h5, h6, h7, h8, h9, h10, h11, h12, h13⟩ := hagree c
    have hsrc' : ∀ e : Fin 1000000, 0 ≤ ((m' ((c.tc : Thread Cert.ReferenceIdeal.nD Cert.ReferenceIdeal.τ).loc Cert.ReferenceIdeal.main_arg1)) (ix1 e)).toInt
        ∧ ((m' ((c.tc : Thread Cert.ReferenceIdeal.nD Cert.ReferenceIdeal.τ).loc Cert.ReferenceIdeal.main_arg1)) (ix1 e)).toInt < 100000 := by
      rw [h1]; exact hsrc c
    rw [reference_value m' c hsrc', h0, h1, h2, h3, h4, h5, h6, h7, h8, h9, h10, h11, h12, h13]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
